-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x12544 : Shape := ⟨2, ![5000, 12544]⟩
abbrev S12544x1024 : Shape := ⟨2, ![12544, 1024]⟩
abbrev S1024 : Shape := ⟨1, ![1024]⟩
abbrev S1024x1024 : Shape := ⟨2, ![1024, 1024]⟩
abbrev S1024x91 : Shape := ⟨2, ![1024, 91]⟩
abbrev S91 : Shape := ⟨1, ![91]⟩
abbrev S1024x364 : Shape := ⟨2, ![1024, 364]⟩
abbrev S364 : Shape := ⟨1, ![364]⟩
abbrev S_ : Shape := ⟨0, ![]⟩

class Facts : Prop where
  bcast_S_S5000x12544 : S_.BroadcastsInDim S5000x12544 (![] : Fin 0 → Fin S5000x12544.rank)
  reducesTo_S5000x12544_S_d0_1 : S5000x12544.ReducesTo [0, 1] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x91 : S_.BroadcastsInDim S1024x91 (![] : Fin 0 → Fin S1024x91.rank)
  reducesTo_S1024x91_S_d0_1 : S1024x91.ReducesTo [0, 1] S_
  bcast_S_S91 : S_.BroadcastsInDim S91 (![] : Fin 0 → Fin S91.rank)
  reducesTo_S91_S_d0 : S91.ReducesTo [0] S_
  bcast_S_S1024x364 : S_.BroadcastsInDim S1024x364 (![] : Fin 0 → Fin S1024x364.rank)
  reducesTo_S1024x364_S_d0_1 : S1024x364.ReducesTo [0, 1] S_
  bcast_S_S364 : S_.BroadcastsInDim S364 (![] : Fin 0 → Fin S364.rank)
  reducesTo_S364_S_d0 : S364.ReducesTo [0] S_

variable [Facts]

def fn_part2 {F : FTy → Type} [FloatOps F] (main_arg7 : FVec F S1024x364 .f32) (main_arg8 : FVec F S364 .f32) (main_v33 : IVec S_ 1) : IVec S_ 1 :=
  let main_v34 : FVec F S1024x364 .f32 := Host.absf main_arg7
  let main_cst_12 : FVec F S_ .f32 := constant S_ .f32 0x7F800000#32
  let main_v35 : FVec F S1024x364 .f32 := broadcastInDim S1024x364 ![] bcast_S_S1024x364 main_cst_12
  let main_v36 : IVec S1024x364 1 := cmpf .olt main_v34 main_v35
  let main_c_13 : IVec S_ 1 := constantI S_ 1 1#1
  let main_v37 : IVec S_ 1 := (fun x v => Host.reduce IntOp.andi x v reducesTo_S1024x364_S_d0_1 h_S_) main_v36 main_c_13
  let main_v38 : IVec S_ 1 := andi main_v33 main_v37
  let main_v39 : FVec F S364 .f32 := Host.absf main_arg8
  let main_cst_14 : FVec F S_ .f32 := constant S_ .f32 0x7F800000#32
  let main_v40 : FVec F S364 .f32 := broadcastInDim S364 ![] bcast_S_S364 main_cst_14
  let main_v41 : IVec S364 1 := cmpf .olt main_v39 main_v40
  let main_c_15 : IVec S_ 1 := constantI S_ 1 1#1
  let main_v42 : IVec S_ 1 := (fun x v => Host.reduce IntOp.andi x v reducesTo_S364_S_d0 h_S_) main_v41 main_c_15
  let main_v43 : IVec S_ 1 := andi main_v38 main_v42
  main_v43

def fn_part1 {F : FTy → Type} [FloatOps F] (main_arg4 : FVec F S1024 .f32) (main_arg5 : FVec F S1024x91 .f32) (main_arg6 : FVec F S91 .f32) (main_arg7 : FVec F S1024x364 .f32) (main_arg8 : FVec F S364 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x91 .f32 := Host.absf main_arg5
  let main_cst_8 : FVec F S_ .f32 := constant S_ .f32 0x7F800000#32
  let main_v25 : FVec F S1024x91 .f32 := broadcastInDim S1024x91 ![] bcast_S_S1024x91 main_cst_8
  let main_v26 : IVec S1024x91 1 := cmpf .olt main_v24 main_v25
  let main_c_9 : IVec S_ 1 := constantI S_ 1 1#1
  let main_v27 : IVec S_ 1 := (fun x v => Host.reduce IntOp.andi x v reducesTo_S1024x91_S_d0_1 h_S_) main_v26 main_c_9
  let main_v28 : IVec S_ 1 := andi main_v23 main_v27
  let main_v29 : FVec F S91 .f32 := Host.absf main_arg6
  let main_cst_10 : FVec F S_ .f32 := constant S_ .f32 0x7F800000#32
  let main_v30 : FVec F S91 .f32 := broadcastInDim S91 ![] bcast_S_S91 main_cst_10
  let main_v31 : IVec S91 1 := cmpf .olt main_v29 main_v30
  let main_c_11 : IVec S_ 1 := constantI S_ 1 1#1
  let main_v32 : IVec S_ 1 := (fun x v => Host.reduce IntOp.andi x v reducesTo_S91_S_d0 h_S_) main_v31 main_c_11
  let main_v33 : IVec S_ 1 := andi main_v28 main_v32
  fn_part2 (F := F) main_arg7 main_arg8 main_v33

def fn {F : FTy → Type} [FloatOps F] (main_arg0 : FVec F S5000x12544 .f32) (main_arg1 : FVec F S12544x1024 .f32) (main_arg2 : FVec F S1024 .f32) (main_arg3 : FVec F S1024x1024 .f32) (main_arg4 : FVec F S1024 .f32) (main_arg5 : FVec F S1024x91 .f32) (main_arg6 : FVec F S91 .f32) (main_arg7 : FVec F S1024x364 .f32) (main_arg8 : FVec F S364 .f32) : IVec S_ 1 :=
  let main_v0 : FVec F S5000x12544 .f32 := Host.absf main_arg0
  let main_cst : FVec F S_ .f32 := constant S_ .f32 0x7F800000#32
  let main_v1 : FVec F S5000x12544 .f32 := broadcastInDim S5000x12544 ![] bcast_S_S5000x12544 main_cst
  let main_v2 : IVec S5000x12544 1 := cmpf .olt main_v0 main_v1
  let main_c : IVec S_ 1 := constantI S_ 1 1#1
  let main_v3 : IVec S_ 1 := (fun x v => Host.reduce IntOp.andi x v reducesTo_S5000x12544_S_d0_1 h_S_) main_v2 main_c
  let main_v4 : FVec F S12544x1024 .f32 := Host.absf main_arg1
  let main_cst_0 : FVec F S_ .f32 := constant S_ .f32 0x7F800000#32
  let main_v5 : FVec F S12544x1024 .f32 := broadcastInDim S12544x1024 ![] bcast_S_S12544x1024 main_cst_0
  let main_v6 : IVec S12544x1024 1 := cmpf .olt main_v4 main_v5
  let main_c_1 : IVec S_ 1 := constantI S_ 1 1#1
  let main_v7 : IVec S_ 1 := (fun x v => Host.reduce IntOp.andi x v reducesTo_S12544x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S5000x12544 : Shape := ⟨2, ![5000, 12544]⟩
abbrev S12544x1024 : Shape := ⟨2, ![12544, 1024]⟩
abbrev S1024 : Shape := ⟨1, ![1024]⟩
abbrev S1024x1024 : Shape := ⟨2, ![1024, 1024]⟩
abbrev S1024x91 : Shape := ⟨2, ![1024, 91]⟩
abbrev S91 : Shape := ⟨1, ![91]⟩
abbrev S1024x364 : Shape := ⟨2, ![1024, 364]⟩
abbrev S364 : Shape := ⟨1, ![364]⟩
abbrev S1x1024 : Shape := ⟨2, ![1, 1024]⟩
abbrev S1x91 : Shape := ⟨2, ![1, 91]⟩
abbrev S1x364 : Shape := ⟨2, ![1, 364]⟩
abbrev S5000x91 : Shape := ⟨2, ![5000, 91]⟩
abbrev S5000x364 : Shape := ⟨2, ![5000, 364]⟩
abbrev S1024x896 : Shape := ⟨2, ![1024, 896]⟩
abbrev S896x1024 : Shape := ⟨2, ![896, 1024]⟩
abbrev S5120x1024 : Shape := ⟨2, ![5120, 1024]⟩

abbrev nBuf : Space → Nat
  | .hbm => 15
  | .vmem => 16
  | .smem => 0
  | _ => 0

abbrev bufTy : (tb : Table) → Fin (tcTables nBuf tb) → BufTy
  | .hbm, ⟨0, _⟩ => ⟨S5000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x91, .f32⟩
  | .hbm, ⟨6, _⟩ => ⟨S91, .f32⟩
  | .hbm, ⟨7, _⟩ => ⟨S1024x364, .f32⟩
  | .hbm, ⟨8, _⟩ => ⟨S364, .f32⟩
  | .hbm, ⟨9, _⟩ => ⟨S1x1024, .f32⟩
  | .hbm, ⟨10, _⟩ => ⟨S1x1024, .f32⟩
  | .hbm, ⟨11, _⟩ => ⟨S1x91, .f32⟩
  | .hbm, ⟨12, _⟩ => ⟨S1x364, .f32⟩
  | .hbm, ⟨13, _⟩ => ⟨S5000x91, .f32⟩
  | .hbm, ⟨14, _⟩ => ⟨S5000x364, .f32⟩
  | .local _ .vmem, ⟨0, _⟩ => ⟨S1024x896, .f32⟩
  | .local _ .vmem, ⟨1, _⟩ => ⟨S1024x896, .f32⟩
  | .local _ .vmem, ⟨2, _⟩ => ⟨S896x1024, .f32⟩
  | .local _ .vmem, ⟨3, _⟩ => ⟨S896x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1024x91, .f32⟩
  | .local _ .vmem, ⟨8, _⟩ => ⟨S1x91, .f32⟩
  | .local _ .vmem, ⟨9, _⟩ => ⟨S1024x364, .f32⟩
  | .local _ .vmem, ⟨10, _⟩ => ⟨S1x364, .f32⟩
  | .local _ .vmem, ⟨11, _⟩ => ⟨S1024x91, .f32⟩
  | .local _ .vmem, ⟨12, _⟩ => ⟨S1024x91, .f32⟩
  | .local _ .vmem, ⟨13, _⟩ => ⟨S1024x364, .f32⟩
  | .local _ .vmem, ⟨14, _⟩ => ⟨S1024x364, .f32⟩
  | .local _ .vmem, ⟨15, _⟩ => ⟨S5120x1024, .f32⟩
  | _, _ => ⟨S5000x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![14, 5], ![false, false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v13 : Index := Scalar.indexCast v0
  let c0_7 : Index := 0#32
  ![v13.toNat, 0]
def k0_cond2 (i : grid0.Coords) : BitVec 1 :=
  let arg0 : BitVec 32 := BitVec.ofNat 32 (i 0).val
  let c0_i32_4 : BitVec 32 := 0#32
  let v7 : BitVec 1 := Scalar.cmpi .sgt arg0 c0_i32_4
  let v8 : BitVec 32 := Scalar.extui v7
  let c0_i32_5 : BitVec 32 := 0#32
  let v9 : BitVec 1 := Scalar.cmpi .ne v8 c0_i32_5
  v9

def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v13 : Index := Scalar.indexCast v0
  let c0_7 : Index := 0#32
  ![v13.toNat, 0]
def k0_cond3 (i : grid0.Coords) : BitVec 1 :=
  let arg0 : BitVec 32 := BitVec.ofNat 32 (i 0).val
  let c13_i32 : BitVec 32 := 13#32
  let v10 : BitVec 1 := Scalar.cmpi .eq arg0 c13_i32
  let v11 : BitVec 32 := Scalar.extui v10
  let c0_i32_6 : BitVec 32 := 0#32
  let v12 : BitVec 1 := Scalar.cmpi .ne v11 c0_i32_6
  v12

def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v13 : Index := Scalar.indexCast v0
  let c0_7 : Index := 0#32
  ![v13.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 1 := Scalar.cmpi .eq arg0 c13_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 1 := Scalar.cmpi .eq arg0 c13_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S1024x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S896x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x91 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x91 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x364 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x364 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x91 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x364 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S1024_S1x1024 : S1024.ShapeCasts S1x1024
  shapeCasts_S91_S1x91 : S91.ShapeCasts S1x91
  shapeCasts_S364_S1x364 : S364.ShapeCasts S1x364
  inb_S1024x896_S1024x896_0_0 : ∀ a, (![0, 0] : Fin 2 → Nat) a + S1024x896.size a ≤ S1024x896.size a
  h_S1024x896 : 0 < S1024x896.numel
  inb_S896x1024_S896x1024_0_0 : ∀ a, (![0, 0] : Fin 2 → Nat) a + S896x1024.size a ≤ S896x1024.size a
  h_S896x1024 : 0 < S896x1024.numel
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  inb_S1024x91_S1024x91_0_0 : ∀ a, (![0, 0] : Fin 2 → Nat) a + S1024x91.size a ≤ S1024x91.size a
  h_S1024x91 : 0 < S1024x91.numel
  inb_S1x91_S1x91_0_0 : ∀ a, (![0, 0] : Fin 2 → Nat) a + S1x91.size a ≤ S1x91.size a
  h_S1x91 : 0 < S1x91.numel
  shapeCasts_S1x91_S1x91 : S1x91.ShapeCasts S1x91
  broadcasts_S1x91_S1024x91 : S1x91.Broadcasts S1024x91
  inb_S1024x364_S1024x364_0_0 : ∀ a, (![0, 0] : Fin 2 → Nat) a + S1024x364.size a ≤ S1024x364.size a
  h_S1024x364 : 0 < S1024x364.numel
  inb_S1x364_S1x364_0_0 : ∀ a, (![0, 0] : Fin 2 → Nat) a + S1x364.size a ≤ S1x364.size a
  h_S1x364 : 0 < S1x364.numel
  shapeCasts_S1x364_S1x364 : S1x364.ShapeCasts S1x364
  broadcasts_S1x364_S1024x364 : S1x364.Broadcasts S1024x364
  dot_S1024x896_S896x1024_S1024x1024_1_0_0_1_n_n_wf : DotDims.WF S1024x896 S896x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x91_S1024x91_1_0_0_1_n_n_wf : DotDims.WF S1024x1024 S1024x91 S1024x91 [1] [0] [0] [1] [] []
  dot_S1024x1024_S1024x364_S1024x364_1_0_0_1_n_n_wf : DotDims.WF S1024x1024 S1024x364 S1024x364 [1] [0] [0] [1] [] []
  hrank0 : 0 < grid0.rank
  k0_off1_inb : ∀ i : grid0.Coords, ∀ (k0_h1 : k0_cond1 i = 1#1), ∀ a, (k0_off1 i) a + S1024x1024.size a ≤ S5120x1024.size a
  k0_off2_inb : ∀ i : grid0.Coords, ∀ (k0_h2 : k0_cond2 i = 1#1), ∀ a, (k0_off2 i) a + S1024x1024.size a ≤ S5120x1024.size a
  k0_off3_inb : ∀ i : grid0.Coords, ∀ (k0_h3 : k0_cond3 i = 1#1), ∀ a, (k0_off3 i) a + S1024x1024.size a ≤ S5120x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x896.size a < S5000x12544.size a
  hwx0_0 : ∀ i : grid0.Coords, EltTy.bits .f32 = 32 ∨ (Rect.unit (s := S5000x12544) (fun a => cc0_transform_0 i a * S1024x896.size a) (fun a => (Pipeline.Clip.of (cc0_transform_0 i a) (S1024x896.size a) (S5000x12544.size a)).extent (S1024x896.size a)) fun a => Pipeline.Clip.inb (Pipeline.Clip.ok_of (hstart0_0 i a))).WholeWords (EltTy.packing .f32)
  hwxs0_0 : ∀ i : grid0.Coords, EltTy.bits .f32 = 32 ∨ (Rect.unit (s := S1024x896) (fun _ => 0) (fun a => (Pipeline.Clip.of (cc0_transform_0 i a) (S1024x896.size a) (S5000x12544.size a)).extent (S1024x896.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S896x1024.size a ≤ S12544x1024.size a
  hwx0_1 : ∀ i : grid0.Coords, EltTy.bits .f32 = 32 ∨ (Rect.block (s := S12544x1024) S896x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x91.size a ≤ S1024x91.size a
  hwx0_5 : ∀ i : grid0.Coords, EltTy.bits .f32 = 32 ∨ (Rect.block (s := S1024x91) S1024x91.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x91.size a ≤ S1x91.size a
  hwx0_6 : ∀ i : grid0.Coords, EltTy.bits .f32 = 32 ∨ (Rect.block (s := S1x91) S1x91.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x364.size a ≤ S1024x364.size a
  hwx0_7 : ∀ i : grid0.Coords, EltTy.bits .f32 = 32 ∨ (Rect.block (s := S1024x364) S1024x364.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x364.size a ≤ S1x364.size a
  hwx0_8 : ∀ i : grid0.Coords, EltTy.bits .f32 = 32 ∨ (Rect.block (s := S1x364) S1x364.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S1024x91.size a < S5000x91.size a
  hwx0_9 : ∀ i : grid0.Coords, EltTy.bits .f32 = 32 ∨ (Rect.unit (s := S5000x91) (fun a => cc0_transform_9 i a * S1024x91.size a) (fun a => (Pipeline.Clip.of (cc0_transform_9 i a) (S1024x91.size a) (S5000x91.size a)).extent (S1024x91.size a)) fun a => Pipeline.Clip.inb (Pipeline.Clip.ok_of (hstart0_9 i a))).WholeWords (EltTy.packing .f32)
  hwxs0_9 : ∀ i : grid0.Coords, EltTy.bits .f32 = 32 ∨ (Rect.unit (s := S1024x91) (fun _ => 0) (fun a => (Pipeline.Clip.of (cc0_transform_9 i a) (S1024x91.size a) (S5000x91.size a)).extent (S1024x91.size a)) fun a => (Nat.zero_add _).trans_le (Pipeline.Clip.extent_le (Pipeline.Clip.ok_of (hstart0_9 i a)))).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hstart0_10 : ∀ (i : grid0.Coords) a, cc0_transform_10 i a * S1024x364.size a < S5000x364.size a
  hwx0_10 : ∀ i : grid0.Coords, EltTy.bits .f32 = 32 ∨ (Rect.unit (s := S5000x364) (fun a => cc0_transform_10 i a * S1024x364.size a) (fun a => (Pipeline.Clip.of (cc0_transform_10 i a) (S1024x364.size a) (S5000x364.size a)).extent (S1024x364.size a)) fun a => Pipeline.Clip.inb (Pipeline.Clip.ok_of (hstart0_10 i a))).WholeWords (EltTy.packing .f32)
  hwxs0_10 : ∀ i : grid0.Coords, EltTy.bits .f32 = 32 ∨ (Rect.unit (s := S1024x364) (fun _ => 0) (fun a => (Pipeline.Clip.of (cc0_transform_10 i a) (S1024x364.size a) (S5000x364.size a)).extent (S1024x364.size a)) fun a => (Nat.zero_add _).trans_le (Pipeline.Clip.extent_le (Pipeline.Clip.ok_of (hstart0_10 i a)))).WholeWords (EltTy.packing .f32)

variable [Facts₀]

def dot_S1024x896_S896x1024_S1024x1024_1_0_0_1_n_n : DotDims S1024x896 S896x1024 S1024x1024 where
  lhsContracting := [1]
  rhsContracting := [0]
  lhsNonContracting := [0]
  rhsNonContracting := [1]
  lhsBatch := []
  rhsBatch := []
  wf := dot_S1024x896_S896x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x91_S1024x91_1_0_0_1_n_n : DotDims S1024x1024 S1024x91 S1024x91 where
  lhsContracting := [1]
  rhsContracting := [0]
  lhsNonContracting := [0]
  rhsNonContracting := [1]
  lhsBatch := []
  rhsBatch := []
  wf := dot_S1024x1024_S1024x91_S1024x91_1_0_0_1_n_n_wf
def dot_S1024x1024_S1024x364_S1024x364_1_0_0_1_n_n : DotDims S1024x1024 S1024x364 S1024x364 where
  lhsContracting := [1]
  rhsContracting := [0]
  lhsNonContracting := [0]
  rhsNonContracting := [1]
  lhsBatch := []
  rhsBatch := []
  wf := dot_S1024x1024_S1024x364_S1024x364_1_0_0_1_n_n_wf

abbrev win0_0 : Pipeline.Window sig grid0 :=
  Pipeline.Window.ofSpecClip (Memref.whole main_arg0) S1024x896.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S896x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x91.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x91.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x364.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x364.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpecClip (Memref.whole main_v4_0) S1024x91.size cc0_transform_9 reads0_9 true false 2 stage0_9 sem0_9
    hrank0 hreads0_9 hstart0_9 nbuf0_9 (Memref.isWhole_whole _) hwx0_9 hwxs0_9 hstage0_9

abbrev win0_10 : Pipeline.Window sig grid0 :=
  Pipeline.Window.ofSpecClip (Memref.whole main_v4_1) S1024x364.size cc0_transform_10 reads0_10 true false 2 stage0_10 sem0_10
    hrank0 hreads0_10 hstart0_10 nbuf0_10 (Memref.isWhole_whole _) hwx0_10 hwxs0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond3 i == 1#1) | 10 => fun i => !(k0_cond3 i == 1#1) | ⟨_ + 11, h⟩ => absurd h (Nat.not_lt.2 (Nat.le_add_left _ _))

class Facts : Prop extends Facts₀ where

variable [Facts]
-- ==== ReferenceIdeal.lean ====
abbrev S5000x12544 : Shape := ⟨2, ![5000, 12544]⟩
abbrev S12544x1024 : Shape := ⟨2, ![12544, 1024]⟩
abbrev S1024 : Shape := ⟨1, ![1024]⟩
abbrev S1024x1024 : Shape := ⟨2, ![1024, 1024]⟩
abbrev S1024x91 : Shape := ⟨2, ![1024, 91]⟩
abbrev S91 : Shape := ⟨1, ![91]⟩
abbrev S1024x364 : Shape := ⟨2, ![1024, 364]⟩
abbrev S364 : Shape := ⟨1, ![364]⟩
abbrev S5000x1024 : Shape := ⟨2, ![5000, 1024]⟩
abbrev S1x1024 : Shape := ⟨2, ![1, 1024]⟩
abbrev S_ : Shape := ⟨0, ![]⟩
abbrev S5000x91 : Shape := ⟨2, ![5000, 91]⟩
abbrev S1x91 : Shape := ⟨2, ![1, 91]⟩
abbrev S5000x364 : Shape := ⟨2, ![5000, 364]⟩
abbrev S1x364 : Shape := ⟨2, ![1, 364]⟩

abbrev nBuf : Space → Nat
  | .hbm => 31
  | .vmem => 0
  | .smem => 0
  | _ => 0

abbrev bufTy : (tb : Table) → Fin (tcTables nBuf tb) → BufTy
  | .hbm, ⟨0, _⟩ => ⟨S5000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x91, .f32⟩
  | .hbm, ⟨6, _⟩ => ⟨S91, .f32⟩
  | .hbm, ⟨7, _⟩ => ⟨S1024x364, .f32⟩
  | .hbm, ⟨8, _⟩ => ⟨S364, .f32⟩
  | .hbm, ⟨9, _⟩ => ⟨S5000x1024, .f32⟩
  | .hbm, ⟨10, _⟩ => ⟨S1x1024, .f32⟩
  | .hbm, ⟨11, _⟩ => ⟨S5000x1024, .f32⟩
  | .hbm, ⟨12, _⟩ => ⟨S5000x1024, .f32⟩
  | .hbm, ⟨13, _⟩ => ⟨S_, .f32⟩
  | .hbm, ⟨14, _⟩ => ⟨S5000x1024, .f32⟩
  | .hbm, ⟨15, _⟩ => ⟨S5000x1024, .f32⟩
  | .hbm, ⟨16, _⟩ => ⟨S5000x1024, .f32⟩
  | .hbm, ⟨17, _⟩ => ⟨S1x1024, .f32⟩
  | .hbm, ⟨18, _⟩ => ⟨S5000x1024, .f32⟩
  | .hbm, ⟨19, _⟩ => ⟨S5000x1024, .f32⟩
  | .hbm, ⟨20, _⟩ => ⟨S_, .f32⟩
  | .hbm, ⟨21, _⟩ => ⟨S5000x1024, .f32⟩
  | .hbm, ⟨22, _⟩ => ⟨S5000x1024, .f32⟩
  | .hbm, ⟨23, _⟩ => ⟨S5000x91, .f32⟩
  | .hbm, ⟨24, _⟩ => ⟨S1x91, .f32⟩
  | .hbm, ⟨25, _⟩ => ⟨S5000x91, .f32⟩
  | .hbm, ⟨26, _⟩ => ⟨S5000x91, .f32⟩
  | .hbm, ⟨27, _⟩ => ⟨S5000x364, .f32⟩
  | .hbm, ⟨28, _⟩ => ⟨S1x364, .f32⟩
  | .hbm, ⟨29, _⟩ => ⟨S5000x364, .f32⟩
  | .hbm, ⟨30, _⟩ => ⟨S5000x364, .f32⟩
  | _, _ => ⟨S5000x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S5000x1024_0_1 : S1x1024.BroadcastsInDim S5000x1024 (![0, 1] : Fin 2 → Fin S5000x1024.rank)
  bcast_S_S5000x1024 : S_.BroadcastsInDim S5000x1024 (![] : Fin 0 → Fin S5000x1024.rank)
  bcast_S91_S1x91_1 : S91.BroadcastsInDim S1x91 (![1] : Fin 1 → Fin S1x91.rank)
  bcast_S1x91_S5000x91_0_1 : S1x91.BroadcastsInDim S5000x91 (![0, 1] : Fin 2 → Fin S5000x91.rank)
  bcast_S364_S1x364_1 : S364.BroadcastsInDim S1x364 (![1] : Fin 1 → Fin S1x364.rank)
  bcast_S1x364_S5000x364_0_1 : S1x364.BroadcastsInDim S5000x364 (![0, 1] : Fin 2 → Fin S5000x364.rank)
  dot_S5000x12544_S12544x1024_S5000x1024_1_0_0_1_n_n_wf : DotDims.WF S5000x12544 S12544x1024 S5000x1024 [1] [0] [0] [1] [] []
  dot_S5000x1024_S1024x1024_S5000x1024_1_0_0_1_n_n_wf : DotDims.WF S5000x1024 S1024x1024 S5000x1024 [1] [0] [0] [1] [] []
  dot_S5000x1024_S1024x91_S5000x91_1_0_0_1_n_n_wf : DotDims.WF S5000x1024 S1024x91 S5000x91 [1] [0] [0] [1] [] []
  dot_S5000x1024_S1024x364_S5000x364_1_0_0_1_n_n_wf : DotDims.WF S5000x1024 S1024x364 S5000x364 [1] [0] [0] [1] [] []

variable [Facts₀]

def dot_S5000x12544_S12544x1024_S5000x1024_1_0_0_1_n_n : DotDims S5000x12544 S12544x1024 S5000x1024 where
  lhsContracting := [1]
  rhsContracting := [0]
  lhsNonContracting := [0]
  rhsNonContracting := [1]
  lhsBatch := []
  rhsBatch := []
  wf := dot_S5000x12544_S12544x1024_S5000x1024_1_0_0_1_n_n_wf
def dot_S5000x1024_S1024x1024_S5000x1024_1_0_0_1_n_n : DotDims S5000x1024 S1024x1024 S5000x1024 where
  lhsContracting := [1]
  rhsContracting := [0]
  lhsNonContracting := [0]
  rhsNonContracting := [1]
  lhsBatch := []
  rhsBatch := []
  wf := dot_S5000x1024_S1024x1024_S5000x1024_1_0_0_1_n_n_wf
def dot_S5000x1024_S1024x91_S5000x91_1_0_0_1_n_n : DotDims S5000x1024 S1024x91 S5000x91 where
  lhsContracting := [1]
  rhsContracting := [0]
  lhsNonContracting := [0]
  rhsNonContracting := [1]
  lhsBatch := []
  rhsBatch := []
  wf := dot_S5000x1024_S1024x91_S5000x91_1_0_0_1_n_n_wf
def dot_S5000x1024_S1024x364_S5000x364_1_0_0_1_n_n : DotDims S5000x1024 S1024x364 S5000x364 where
  lhsContracting := [1]
  rhsContracting := [0]
  lhsNonContracting := [0]
  rhsNonContracting := [1]
  lhsBatch := []
  rhsBatch := []
  wf := dot_S5000x1024_S1024x364_S5000x364_1_0_0_1_n_n_wf

class Facts : Prop extends Facts₀ where

variable [Facts]
-- ==== Proof.KB.Tile.lean ====
/-
  The kept first-layer products live in one scratch array of 5120 rows, five tiles of 1024 rows, one per step of
  the inner grid axis. A step reads its own tile and stores a tile-sized value back over it; every other row keeps
  what it held. `tile` and `putTile` say that on plain arrays; the lemmas read a whole scratch buffer, or a whole
  staging buffer, after such a store, and give the tile's row offset as the kernel computes it in closed form.
-/
import proofs.«162220_g47519518163636_cont_8to1_c_297_4_alg».proof.Proof.Gen.Kernel.Skeleton
import Idealize.ShloMosaic.Lib.Pipeline.Frame
import Idealize.ShloMosaic.Lib.Pipeline.Value
import Idealize.ShloMosaic.Lib.WritesUnit
import Idealize.ShloMosaic.Lib.WholeRead
import Idealize.ShloMosaic.Lib.ValueIdx

noncomputable section

namespace Cert.Kernel.Hand

open Cert.Kernel Cert.Kernel.Gen Idealize.ShloMosaic Idealize.ShloMosaic.ValueIdx

variable {F : FTy → Type} [FloatOps F]

/-- The inner grid coordinate is below five. -/
theorem i1_lt (i : grid0.Coords) : (i 1).val < 5 := (i 1).isLt

/-- Tile `i 1` of the scratch array: its rows 1024·(i 1) … 1024·(i 1) + 1023. -/
def tile (i : grid0.Coords) (xs : Vec F S5120x1024 .f32) : Vec F S1024x1024 .f32 := fun y =>
  xs (ix2 (⟨1024 * (i 1).val + (y 0).val, by have := i1_lt i; have h0 : (y 0).val < 1024 := (y 0).isLt; omega⟩ : Fin 5120) (⟨(y 1).val, (y 1).isLt⟩ : Fin 1024))

/-- The scratch array with tile `i 1` overwritten by `P`, every other row kept. -/
def putTile (i : grid0.Coords) (xs : Vec F S5120x1024 .f32) (P : Vec F S1024x1024 .f32) : Vec F S5120x1024 .f32 := fun y =>
  if h : 1024 * (i 1).val ≤ (y (0 : Fin 2)).val ∧ (y (0 : Fin 2)).val < 1024 * (i 1).val + 1024 then
    P (Rect.unitLocal (s := S5120x1024) (off := ![1024 * (i 1).val, 0]) (size := S1024x1024.size) y (Rect.unit_rows_mem y rfl rfl h))
  else xs y

/-- A row of the overwritten tile reads the new value at the row's place in the tile. -/
theorem putTile_of_mem (i : grid0.Coords) (xs : Vec F S5120x1024 .f32) (P : Vec F S1024x1024 .f32) (ρ j : Fin 1024) :
    putTile i xs P (ix2 (⟨1024 * (i 1).val + ρ.val, by have := i1_lt i; omega⟩ : Fin 5120) j) = P (ix2 ρ j) := by
  have h : 1024 * (i 1).val ≤ 1024 * (i 1).val + ρ.val ∧ 1024 * (i 1).val + ρ.val < 1024 * (i 1).val + 1024 := by
    have := ρ.isLt; omega
  unfold putTile
  refine (dif_pos h).trans (congrArg P ?_)
  refine funext (Fin.forall_fin_two.mpr ⟨Fin.ext ?_, Fin.ext ?_⟩)
  · show 1024 * (i 1).val + ρ.val - 1024 * (i 1).val = ρ.val
    omega
  · show j.val - 0 = j.val
    omega

/-- A row outside the overwritten tile reads what the array held. -/
theorem putTile_of_not_mem (i : grid0.Coords) (xs : Vec F S5120x1024 .f32) (P : Vec F S1024x1024 .f32) (y : S5120x1024.Idx)
    (h : ¬(1024 * (i 1).val ≤ (y (0 : Fin 2)).val ∧ (y (0 : Fin 2)).val < 1024 * (i 1).val + 1024)) :
    putTile i xs P y = xs y := by
  unfold putTile
  exact dif_neg h

/-- The tile read at its row ρ and column j. -/
theorem tile_apply (i : grid0.Coords) (xs : Vec F S5120x1024 .f32) (ρ j : Fin 1024) :
    tile i xs (ix2 ρ j) = xs (ix2 (⟨1024 * (i 1).val + ρ.val, by have := i1_lt i; omega⟩ : Fin 5120) j) := by
  unfold tile
  rfl

/-- Reading back the tile just stored gives the stored value. -/
theorem tile_putTile (i : grid0.Coords) (xs : Vec F S5120x1024 .f32) (P : Vec F S1024x1024 .f32) :
    tile i (putTile i xs P) = P := by
  funext y
  obtain ⟨ρ, j, rfl⟩ : ∃ (ρ j : Fin 1024), y = ix2 ρ j := ⟨y 0, y 1, eq_ix2 y⟩
  rw [tile_apply, putTile_of_mem]

/-- The inner coordinate times 1024, computed in 32-bit words, is the product of the naturals: it is below 5120. -/
private theorem off_word : ∀ a : Fin 5,
    (Scalar.indexCast (Scalar.muli (BitVec.ofNat 32 a.val) 1024#32)).toNat = 1024 * a.val := by decide

private theorem off_word' (n : ℕ) (h : n < 5) :
    (Scalar.indexCast (Scalar.muli (BitVec.ofNat 32 n) 1024#32)).toNat = 1024 * n := off_word ⟨n, h⟩

/-- The tile's offsets as the kernel computes them (32-bit words: the inner coordinate times 1024): row 1024·(i 1), column 0. -/
theorem off1_eq (i : grid0.Coords) : k0_off1 i = ![1024 * (i 1).val, 0] := by
  have h := off_word' (i 1).val (i1_lt i)
  unfold k0_off1
  dsimp only
  rw [h]
theorem off2_eq (i : grid0.Coords) : k0_off2 i = ![1024 * (i 1).val, 0] := by
  have h := off_word' (i 1).val (i1_lt i)
  unfold k0_off2
  dsimp only
  rw [h]
theorem off3_eq (i : grid0.Coords) : k0_off3 i = ![1024 * (i 1).val, 0] := by
  have h := off_word' (i 1).val (i1_lt i)
  unfold k0_off3
  dsimp only
  rw [h]

/-- A load of a whole staging buffer, through the rectangle at offsets zero of the buffer's own size, is its contents. -/
theorem readAt_whole {d : Fin 2 → ℕ} (M : Memref sig .tc .vmem (⟨2, d⟩ : Shape) .f32) (hM : M.IsWhole)
    (inb : ∀ a, (![0, 0] : Fin 2 → ℕ) a + (⟨2, d⟩ : Shape).size a ≤ (⟨2, d⟩ : Shape).size a) (X : Vec F (⟨2, d⟩ : Shape) .f32) :
    View.readAt (Elt F) M.view (Rect.unit (s := (⟨2, d⟩ : Shape)) ![0, 0] (⟨2, d⟩ : Shape).size inb).toLoadRect (hM.unread X) = X := by
  funext x
  rw [hM.readAt_unread X _ x]
  refine congrArg X ?_
  refine funext (Fin.forall_fin_two.mpr ⟨Fin.ext ?_, Fin.ext ?_⟩)
  · show 0 + 1 * (x 0).val = (x 0).val
    omega
  · show 0 + 1 * (x 1).val = (x 1).val
    omega

/-- A whole staging buffer after an unmasked store of `P` through that same rectangle holds `P`, whatever it held. -/
theorem read_store_whole {d : Fin 2 → ℕ} (M : Memref sig .tc .vmem (⟨2, d⟩ : Shape) .f32) (hM : M.IsWhole)
    (inb : ∀ a, (![0, 0] : Fin 2 → ℕ) a + (⟨2, d⟩ : Shape).size a ≤ (⟨2, d⟩ : Shape).size a)
    (f : M.view.ty.Contents (Elt F)) (P : Vec F (⟨2, d⟩ : Shape) .f32) :
    M.view.read (Elt F) (M.view.writes (Elt F) f [⟨Rect.unit (s := (⟨2, d⟩ : Shape)) ![0, 0] (⟨2, d⟩ : Shape).size inb, P⟩]) = P := by
  funext y
  refine View.read_writes_cons_unit_of_mem M.view f inb P [] y y rfl (Fin.forall_fin_two.mpr ⟨?_, ?_⟩)
  · show (y 0).val = 0 + (y 0).val
    omega
  · show (y 1).val = 0 + (y 1).val
    omega

/-- The scratch buffer after a store of `P` through tile `i 1`'s rectangle: `putTile`. -/
theorem read_store_tile (M : Memref sig .tc .vmem S5120x1024 .f32) (hM : M.IsWhole) (i : grid0.Coords) (off : Fin 2 → ℕ)
    (hoff : off = ![1024 * (i 1).val, 0]) (inb : ∀ a, off a + S1024x1024.size a ≤ S5120x1024.size a)
    (xs : Vec F S5120x1024 .f32) (P : Vec F S1024x1024 .f32) :
    M.view.read (Elt F) (M.view.writes (Elt F) (hM.unread xs) [⟨Rect.unit (s := S5120x1024) off S1024x1024.size inb, P⟩])
      = putTile i xs P := by
  funext y
  rw [View.read_writes_cons_rows M.view (hM.unread xs) inb P [] y (o := 1024 * (i 1).val) (W := 1024) hoff rfl rfl,
    View.writes_nil, hM.read_unread]
  unfold putTile
  rfl

/-- A load through tile `i 1`'s rectangle reads the tile of what the buffer holds. -/
theorem readAt_tile (M : Memref sig .tc .vmem S5120x1024 .f32) (i : grid0.Coords) (off : Fin 2 → ℕ)
    (hoff : off = ![1024 * (i 1).val, 0]) (inb : ∀ a, off a + S1024x1024.size a ≤ S5120x1024.size a)
    (f : M.view.ty.Contents (Elt F)) :
    View.readAt (Elt F) M.view (Rect.unit (s := S5120x1024) off S1024x1024.size inb).toLoadRect f
      = tile i (M.view.read (Elt F) f) := by
  subst hoff
  funext x
  rw [View.readAt_apply]
  unfold tile
  refine congrArg (M.view.read (Elt F) f) ?_
  refine funext (Fin.forall_fin_two.mpr ⟨Fin.ext ?_, Fin.ext ?_⟩)
  · show 1024 * (i 1).val + 1 * (x 0).val = 1024 * (i 1).val + (x 0).val
    omega
  · show 0 + 1 * (x 1).val = (x 1).val
    omega

end Cert.Kernel.Hand

end
-- ==== Proof.KB.Run.lean ====
/-
  The kernel body run once, at one grid point, on any whole staging buffers and any whole scratch buffer, in each
  of the three situations the outer grid coordinate k puts it in. At k = 0 the step's block of the first product is
  stored into the step's tile of the scratch. At 0 < k it is added to what the tile held. At the last k, after that
  addition, the tile is read back and the two output blocks are computed from it and stored whole. Nothing else is
  written: every input buffer ends as it began, and every other tile of the scratch keeps what it held. Stated for
  any float instance: the stored values are the body's own terms of what the buffers held.
-/
import proofs.«162220_g47519518163636_cont_8to1_c_297_4_alg».proof.Proof.Gen.Kernel.Launch
import proofs.«162220_g47519518163636_cont_8to1_c_297_4_alg».proof.Proof.Gen.Kernel.Skeleton
import proofs.«162220_g47519518163636_cont_8to1_c_297_4_alg».proof.Proof.Gen.Kernel.Points
import proofs.«162220_g47519518163636_cont_8to1_c_297_4_alg».proof.Proof.KB.Tile
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load through the rectangle of the newest store, however its offsets are spelt, reads that store's value. -/
theorem readCov_same (M : Memref sig .tc .vmem S5120x1024 .f32) (off off' : Fin 2 → ℕ) (h : off = off')
    (inb : ∀ a, off a + S1024x1024.size a ≤ S5120x1024.size a) (inb' : ∀ a, off' a + S1024x1024.size a ≤ S5120x1024.size a)
    (P : (Rect.unit (s := S5120x1024) off S1024x1024.size inb).shape.Idx → Elt F .f32) (L : List (View.Piece (Elt F) S5120x1024 .f32)) :
    M.view.readCov (⟨Rect.unit (s := S5120x1024) off S1024x1024.size inb, P⟩ :: L)
      (Rect.unit (s := S5120x1024) off' S1024x1024.size inb').toLoadRect = P := by
  subst h
  exact View.readCov_cons_toLoadRect _ _ _ _

set_option maxHeartbeats 4000000 in
/-- First step of the outer axis: the step's tile of the scratch ends holding the step's block of the first product. -/
theorem runA (c : Dev nD) (i : grid0.Coords) (arg2 : Memref sig .tc .vmem S1024x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x91 .f32) (harg7 : arg7.IsWhole) (arg8 : Memref sig .tc .vmem S1x91 .f32) (harg8 : arg8.IsWhole) (arg9 : Memref sig .tc .vmem S1024x364 .f32) (harg9 : arg9.IsWhole) (arg10 : Memref sig .tc .vmem S1x364 .f32) (harg10 : arg10.IsWhole) (arg11 : Memref sig .tc .vmem S1024x91 .f32) (harg11 : arg11.IsWhole) (arg12 : Memref sig .tc .vmem S1024x364 .f32) (harg12 : arg12.IsWhole) (arg13 : Memref sig .tc .vmem S5120x1024 .f32) (harg13 : arg13.IsWhole)
    (hc1 : k0_cond1 i = 1#1) (hc2 : ¬ k0_cond2 i = 1#1) (hc3 : ¬ k0_cond3 i = 1#1)
    (x0 : Vec F S1024x896 .f32) (x1 : Vec F S896x1024 .f32) (xs : Vec F S5120x1024 .f32)
    (E : Set ℕ) (K : PUnit → sProp 𝕄) :
    iprop(owns (c : Thread nD τ) arg2 fullShare x0 ∗ owns (c : Thread nD τ) arg3 fullShare x1 ∗ owns (c : Thread nD τ) arg13 fullShare xs
        ∗ (iprop(owns (c : Thread nD τ) arg2 fullShare x0 ∗ owns (c : Thread nD τ) arg3 fullShare x1
            ∗ owns (c : Thread nD τ) arg13 fullShare (putTile i xs (k0_pay2 x0 x1))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg13.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [readAt_whole arg2 harg2, readAt_whole arg3 harg3]
  exact read_store_tile arg13 harg13 i _ (off1_eq i) _ xs _

set_option maxHeartbeats 4000000 in
/-- A later step that is not the last: the step's tile ends holding what it held plus the step's block. -/
theorem runB (c : Dev nD) (i : grid0.Coords) (arg2 : Memref sig .tc .vmem S1024x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x91 .f32) (harg7 : arg7.IsWhole) (arg8 : Memref sig .tc .vmem S1x91 .f32) (harg8 : arg8.IsWhole) (arg9 : Memref sig .tc .vmem S1024x364 .f32) (harg9 : arg9.IsWhole) (arg10 : Memref sig .tc .vmem S1x364 .f32) (harg10 : arg10.IsWhole) (arg11 : Memref sig .tc .vmem S1024x91 .f32) (harg11 : arg11.IsWhole) (arg12 : Memref sig .tc .vmem S1024x364 .f32) (harg12 : arg12.IsWhole) (arg13 : Memref sig .tc .vmem S5120x1024 .f32) (harg13 : arg13.IsWhole)
    (hc1 : ¬ k0_cond1 i = 1#1) (hc2 : k0_cond2 i = 1#1) (hc3 : ¬ k0_cond3 i = 1#1)
    (x0 : Vec F S1024x896 .f32) (x1 : Vec F S896x1024 .f32) (xs : Vec F S5120x1024 .f32)
    (E : Set ℕ) (K : PUnit → sProp 𝕄) :
    iprop(owns (c : Thread nD τ) arg2 fullShare x0 ∗ owns (c : Thread nD τ) arg3 fullShare x1 ∗ owns (c : Thread nD τ) arg13 fullShare xs
        ∗ (iprop(owns (c : Thread nD τ) arg2 fullShare x0 ∗ owns (c : Thread nD τ) arg3 fullShare x1
            ∗ owns (c : Thread nD τ) arg13 fullShare (putTile i xs (k0_pay3 x0 x1 (tile i xs)))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg13.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [readAt_whole arg2 harg2, readAt_whole arg3 harg3, readAt_tile arg13 i _ (off2_eq i), harg13.read_unread]
  exact read_store_tile arg13 harg13 i _ (off2_eq i) _ xs _

set_option maxHeartbeats 8000000 in
/-- The last step of the outer axis: after the addition the tile is read back, the two output blocks are computed from it
    and the weights' blocks, and stored whole over whatever the output buffers held. -/
theorem runC (c : Dev nD) (i : grid0.Coords) (arg2 : Memref sig .tc .vmem S1024x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x91 .f32) (harg7 : arg7.IsWhole) (arg8 : Memref sig .tc .vmem S1x91 .f32) (harg8 : arg8.IsWhole) (arg9 : Memref sig .tc .vmem S1024x364 .f32) (harg9 : arg9.IsWhole) (arg10 : Memref sig .tc .vmem S1x364 .f32) (harg10 : arg10.IsWhole) (arg11 : Memref sig .tc .vmem S1024x91 .f32) (harg11 : arg11.IsWhole) (arg12 : Memref sig .tc .vmem S1024x364 .f32) (harg12 : arg12.IsWhole) (arg13 : Memref sig .tc .vmem S5120x1024 .f32) (harg13 : arg13.IsWhole)
    (hc1 : ¬ k0_cond1 i = 1#1) (hc2 : k0_cond2 i = 1#1) (hc3 : k0_cond3 i = 1#1)
    (x0 : Vec F S1024x896 .f32) (x1 : Vec F S896x1024 .f32) (x2 : Vec F S1x1024 .f32) (x3 : Vec F S1024x1024 .f32) (x4 : Vec F S1x1024 .f32)
    (x5 : Vec F S1024x91 .f32) (x6 : Vec F S1x91 .f32) (x7 : Vec F S1024x364 .f32) (x8 : Vec F S1x364 .f32)
    (x9 : Vec F S1024x91 .f32) (x10 : Vec F S1024x364 .f32) (xs : Vec F S5120x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ owns (c : Thread nD τ) arg11 fullShare x9 ∗ owns (c : Thread nD τ) arg12 fullShare x10
        ∗ owns (c : Thread nD τ) arg13 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (k0_pay5 (k0_pay3 x0 x1 (tile i xs)) x2 x3 x4 x5 x6)
            ∗ owns (c : Thread nD τ) arg12 fullShare (k0_pay6 (k0_pay3 x0 x1 (tile i xs)) x2 x3 x4 x7 x8)
            ∗ owns (c : Thread nD τ) arg13 fullShare (putTile i xs (k0_pay3 x0 x1 (tile i xs)))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    sl_unfold_run_names
    rw [read_store_whole arg11 harg11, readCov_same arg13 _ _ ((off2_eq i).trans (off3_eq i).symm), readAt_whole arg2 harg2,
      readAt_whole arg3 harg3, readAt_tile arg13 i _ (off2_eq i), harg13.read_unread, readAt_whole arg4 harg4, readAt_whole arg5 harg5,
      readAt_whole arg6 harg6, readAt_whole arg7 harg7, readAt_whole arg8 harg8]
  isplitl [H10]
  · iexists _; isplitr
    swap; · iexact H10
    ipureintro
    sl_unfold_run_names
    rw [read_store_whole arg12 harg12, readCov_same arg13 _ _ ((off2_eq i).trans (off3_eq i).symm), readAt_whole arg2 harg2,
      readAt_whole arg3 harg3, readAt_tile arg13 i _ (off2_eq i), harg13.read_unread, readAt_whole arg4 harg4, readAt_whole arg5 harg5,
      readAt_whole arg6 harg6, readAt_whole arg9 harg9, readAt_whole arg10 harg10]
  iexists _; isplitr
  swap; · iexact HS
  ipureintro
  sl_unfold_run_names
  rw [readAt_whole arg2 harg2, readAt_whole arg3 harg3, readAt_tile arg13 i _ (off2_eq i), harg13.read_unread]
  exact read_store_tile arg13 harg13 i _ (off2_eq i) _ xs _

end Cert.Kernel.Hand

end
-- ==== Proof.KB.Frame.lean ====
/-
  The frame of the word-level program: it runs to the end without a fault and leaves its nine argument arrays as it
  found them. At the machine's words a matrix product is an opaque function of its whole operands, and the last row
  block of the input overhangs the array, so the staged block's tail holds words nothing names; what the body then
  leaves in the scratch and in the output buffers cannot be named either. The frame needs none of it: the body's
  branches, addresses and loads never depend on a buffer's contents. So the proof data here are relational and say
  nothing of contents (every staging buffer may be left holding anything, the scratch holds anything between
  points), and the body obligation is: from any contents, the body runs, in whichever of its three situations the
  point is in, and hands every buffer back.
-/
import proofs.«162220_g47519518163636_cont_8to1_c_297_4_alg».proof.Proof.Gen.Kernel.Frame
import proofs.«162220_g47519518163636_cont_8to1_c_297_4_alg».proof.Proof.KB.Run
import Idealize.ShloMosaic.Lib.Pipeline.Frame
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; of what the body leaves in
    a staging buffer, nothing; between points the scratch at anything and the generator register at some state;
    nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The three situations, by the outer grid coordinate k = t / 5 (decided over the seventy points): the first
    condition holds exactly at k = 0, the second exactly at k > 0, the third exactly at k = 13. -/
theorem hcond1 : ∀ t : Fin cfg0.N, k0_cond1 (grid0.coords t) = 1#1 ↔ t.val < 5 := by
  exact (by decide +kernel : ∀ t : Fin grid0.N, k0_cond1 (grid0.coords t) = 1#1 ↔ t.val < 5)
theorem hcond2 : ∀ t : Fin cfg0.N, k0_cond2 (grid0.coords t) = 1#1 ↔ 5 ≤ t.val := by
  exact (by decide +kernel : ∀ t : Fin grid0.N, k0_cond2 (grid0.coords t) = 1#1 ↔ 5 ≤ t.val)
theorem hcond3 : ∀ t : Fin cfg0.N, k0_cond3 (grid0.coords t) = 1#1 ↔ 65 ≤ t.val := by
  exact (by decide +kernel : ∀ t : Fin grid0.N, k0_cond3 (grid0.coords t) = 1#1 ↔ 65 ≤ t.val)

/-- The class's invariant for this pipeline: the one scratch buffer at some contents and the generator register at some state. -/
private theorem PhiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

set_option maxHeartbeats 4000000 in
/-- The body at a point, the windows one by one: whatever the scratch and the eleven current staging buffers hold, the
    body runs in the situation the point is in — the first outer step stores a tile of the scratch, a later one adds
    to it, the last one also writes the two output buffers — and every buffer comes back at some contents. -/
private theorem sound_body (c : Dev nD) (t : Fin cfg0.N) (Y : (w : Fin cfg0.W) → (cfg0.win w).block.Idx → Elt F (cfg0.win w).elt) :
    iprop(Pipeline.ΦA spec0 c ∗ (rdat m c).owesAt () t.castSucc
        ∗ owns (c : Thread nD τ) (st0_0 t) fullShare (Y 0)
        ∗ owns (c : Thread nD τ) (st0_1 t) fullShare (Y 1)
        ∗ owns (c : Thread nD τ) (st0_2 t) fullShare (Y 2)
        ∗ owns (c : Thread nD τ) (st0_3 t) fullShare (Y 3)
        ∗ owns (c : Thread nD τ) (st0_4 t) fullShare (Y 4)
        ∗ owns (c : Thread nD τ) (st0_5 t) fullShare (Y 5)
        ∗ owns (c : Thread nD τ) (st0_6 t) fullShare (Y 6)
        ∗ owns (c : Thread nD τ) (st0_7 t) fullShare (Y 7)
        ∗ owns (c : Thread nD τ) (st0_8 t) fullShare (Y 8)
        ∗ owns (c : Thread nD τ) (st0_9 t) fullShare (Y 9)
        ∗ owns (c : Thread nD τ) (st0_10 t) fullShare (Y 10))
      ⊢ wp frame (wpE (defs₀ (F := F)) Variants.none c none) Set.univ (bodyAt0 t) (fun _ =>
          iprop(Pipeline.ΦA spec0 c ∗ (rdat m c).owesAt () t.castSucc
            ∗ (∃ X, ⌜True⌝ ∗ owns (c : Thread nD τ) (st0_0 t) fullShare X)
            ∗ (∃ X, ⌜True⌝ ∗ owns (c : Thread nD τ) (st0_1 t) fullShare X)
            ∗ (∃ X, ⌜True⌝ ∗ owns (c : Thread nD τ) (st0_2 t) fullShare X)
            ∗ (∃ X, ⌜True⌝ ∗ owns (c : Thread nD τ) (st0_3 t) fullShare X)
            ∗ (∃ X, ⌜True⌝ ∗ owns (c : Thread nD τ) (st0_4 t) fullShare X)
            ∗ (∃ X, ⌜True⌝ ∗ owns (c : Thread nD τ) (st0_5 t) fullShare X)
            ∗ (∃ X, ⌜True⌝ ∗ owns (c : Thread nD τ) (st0_6 t) fullShare X)
            ∗ (∃ X, ⌜True⌝ ∗ owns (c : Thread nD τ) (st0_7 t) fullShare X)
            ∗ (∃ X, ⌜True⌝ ∗ owns (c : Thread nD τ) (st0_8 t) fullShare X)
            ∗ (∃ X, ⌜True⌝ ∗ owns (c : Thread nD τ) (st0_9 t) fullShare X)
            ∗ (∃ X, ⌜True⌝ ∗ owns (c : Thread nD τ) (st0_10 t) fullShare X))) := by
  rw [PhiA_eq]
  by_cases h1 : t.val < 5
  · have hc1 : k0_cond1 (grid0.coords t) = 1#1 := (hcond1 t).mpr h1
    have hc2 : ¬ k0_cond2 (grid0.coords t) = 1#1 := fun h => by have := (hcond2 t).mp h; omega
    have hc3 : ¬ k0_cond3 (grid0.coords t) = 1#1 := fun h => by have := (hcond3 t).mp h; omega
    iintro ⟨⟨⟨%d, HS⟩, Hg⟩, Ho, H0, H1, H2, H3, H4, H5, H6, H7, H8, H9, H10⟩
    iapply (runA c (grid0.coords t) _ _ _ _ _ _ _ _ _ _ _ _ _ _ _ _ _ _ _ _ _ _ _ _ hc1 hc2 hc3 (Y 0) (Y 1) d Set.univ _)
    isplitl [H0]; · iexact H0
    isplitl [H1]; · iexact H1
    isplitl [HS]; · iexact HS
    iintro ⟨H0, H1, HS⟩
    isplitl [HS Hg]
    · isplitl [HS]
      · iexists _; iexact HS
      iexact Hg
    isplitl [Ho]; · iexact Ho
    isplitl [H0]
    · iexists _; isplitr; · ipureintro; trivial
      iexact H0
    isplitl [H1]
    · iexists _; isplitr; · ipureintro; trivial
      iexact H1
    isplitl [H2]
    · iexists _; isplitr; · ipureintro; trivial
      iexact H2
    isplitl [H3]
    · iexists _; isplitr; · ipureintro; trivial
      iexact H3
    isplitl [H4]
    · iexists _; isplitr; · ipureintro; trivial
      iexact H4
    isplitl [H5]
    · iexists _; isplitr; · ipureintro; trivial
      iexact H5
    isplitl [H6]
    · iexists _; isplitr; · ipureintro; trivial
      iexact H6
    isplitl [H7]
    · iexists _; isplitr; · ipureintro; trivial
      iexact H7
    isplitl [H8]
    · iexists _; isplitr; · ipureintro; trivial
      iexact H8
    isplitl [H9]
    · iexists _; isplitr; · ipureintro; trivial
      iexact H9
    iexists _; isplitr; · ipureintro; trivial
    iexact H10
  · have hc1 : ¬ k0_cond1 (grid0.coords t) = 1#1 := fun h => h1 ((hcond1 t).mp h)
    have hc2 : k0_cond2 (grid0.coords t) = 1#1 := (hcond2 t).mpr (by omega)
    by_cases h3 : 65 ≤ t.val
    · have hc3 : k0_cond3 (grid0.coords t) = 1#1 := (hcond3 t).mpr h3
      iintro ⟨⟨⟨%d, HS⟩, Hg⟩, Ho, H0, H1, H2, H3, H4, H5, H6, H7, H8, H9, H10⟩
      iapply (runC c (grid0.coords t) _ _ _ _ _ _ _ _ _ _ _ _ _ _ _ _ _ _ _ _ _ _ _ _ hc1 hc2 hc3 (Y 0) (Y 1) (Y 2) (Y 3) (Y 4) (Y 5) (Y 6) (Y 7) (Y 8) (Y 9) (Y 10) d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HS Hg]
      · isplitl [HS]
        · iexists _; iexact HS
        iexact Hg
      isplitl [Ho]; · iexact Ho
      isplitl [H0]
      · iexists _; isplitr; · ipureintro; trivial
        iexact H0
      isplitl [H1]
      · iexists _; isplitr; · ipureintro; trivial
        iexact H1
      isplitl [H2]
      · iexists _; isplitr; · ipureintro; trivial
        iexact H2
      isplitl [H3]
      · iexists _; isplitr; · ipureintro; trivial
        iexact H3
      isplitl [H4]
      · iexists _; isplitr; · ipureintro; trivial
        iexact H4
      isplitl [H5]
      · iexists _; isplitr; · ipureintro; trivial
        iexact H5
      isplitl [H6]
      · iexists _; isplitr; · ipureintro; trivial
        iexact H6
      isplitl [H7]
      · iexists _; isplitr; · ipureintro; trivial
        iexact H7
      isplitl [H8]
      · iexists _; isplitr; · ipureintro; trivial
        iexact H8
      isplitl [H9]
      · iexists _; isplitr; · ipureintro; trivial
        iexact H9
      iexists _; isplitr; · ipureintro; trivial
      iexact H10
    · have hc3 : ¬ k0_cond3 (grid0.coords t) = 1#1 := fun h => h3 ((hcond3 t).mp h)
      iintro ⟨⟨⟨%d, HS⟩, Hg⟩, Ho, H0, H1, H2, H3, H4, H5, H6, H7, H8, H9, H10⟩
      iapply (runB c (grid0.coords t) _ _ _ _ _ _ _ _ _ _ _ _ _ _ _ _ _ _ _ _ _ _ _ _ hc1 hc2 hc3 (Y 0) (Y 1) d Set.univ _)
      isplitl [H0]; · iexact H0
      isplitl [H1]; · iexact H1
      isplitl [HS]; · iexact HS
      iintro ⟨H0, H1, HS⟩
      isplitl [HS Hg]
      · isplitl [HS]
        · iexists _; iexact HS
        iexact Hg
      isplitl [Ho]; · iexact Ho
      isplitl [H0]
      · iexists _; isplitr; · ipureintro; trivial
        iexact H0
      isplitl [H1]
      · iexists _; isplitr; · ipureintro; trivial
        iexact H1
      isplitl [H2]
      · iexists _; isplitr; · ipureintro; trivial
        iexact H2
      isplitl [H3]
      · iexists _; isplitr; · ipureintro; trivial
        iexact H3
      isplitl [H4]
      · iexists _; isplitr; · ipureintro; trivial
        iexact H4
      isplitl [H5]
      · iexists _; isplitr; · ipureintro; trivial
        iexact H5
      isplitl [H6]
      · iexists _; isplitr; · ipureintro; trivial
        iexact H6
      isplitl [H7]
      · iexists _; isplitr; · ipureintro; trivial
        iexact H7
      isplitl [H8]
      · iexists _; isplitr; · ipureintro; trivial
        iexact H8
      isplitl [H9]
      · iexists _; isplitr; · ipureintro; trivial
        iexact H9
      iexists _; isplitr; · ipureintro; trivial
      iexact H10

/-- The body obligation: at every point, from the scratch and every current staging buffer at any contents, the body runs
    and hands them all back at some contents. -/
theorem body_obligation (c : Dev nD) : (rdat m c).BodyObligation (defs₀ (F := F)) Variants.none () Set.univ := by
  intro t Y _
  rw [bigSep_W0, bigSep_W0]
  exact sound_body m c t Y

/-- The run: every weakly fair execution of @main terminates, nothing faulting; every input array ends as the region found
    it and every buffer that bypasses the region as it was. -/
theorem run_main : θ_run defs (onTc (τ := τ) (main (F := F))) (s₀ m ρ) (RDat.FramePost cfg0 (rdat m) (V m)) := by
  exact Pipeline.RDat.θ_run_frame cfgs 0 launch0 defs₀ Variants.none (rdat m) m ρ main
    (hbody := body_obligation m) (hshare := fun c w => by unfold RDat.share; split <;> rfl) (howed := fun _ _ => rfl)
    (V := V m) (hmain := hmain m Variants.none) (hA := fun _ _ => rfl) (hΦ := fun _ _ => rfl)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r (h : RDat.FramePost cfg0 (rdat m) (V m) r) c => ?_) (run_main m ρ)
  exact ⟨(RDat.FramePost.arr_in h c 0 rfl).trans (V_main_arg0 m c),
      (RDat.FramePost.arr_in h c 1 rfl).trans (V_main_arg1 m c),
      ((h c).2 main_arg2 (Pipeline.mem_restRefs_of main_arg2 (by decide) (by decide))).trans (V_main_arg2 m c),
      (RDat.FramePost.arr_in h c 3 rfl).trans (V_main_arg3 m c),
      ((h c).2 main_arg4 (Pipeline.mem_restRefs_of main_arg4 (by decide) (by decide))).trans (V_main_arg4 m c),
      (RDat.FramePost.arr_in h c 5 rfl).trans (V_main_arg5 m c),
      ((h c).2 main_arg6 (Pipeline.mem_restRefs_of main_arg6 (by decide) (by decide))).trans (V_main_arg6 m c),
      (RDat.FramePost.arr_in h c 7 rfl).trans (V_main_arg7 m c),
      ((h c).2 main_arg8 (Pipeline.mem_restRefs_of main_arg8 (by decide) (by decide))).trans (V_main_arg8 m c)⟩

end Cert.Kernel.Hand

end
-- ==== Proof.KI.Tile.lean ====
/-
  The kept first-layer products live in one scratch array of 5120 rows, five tiles of 1024 rows, one per step of
  the inner grid axis. A step reads its own tile and stores a tile-sized value back over it; every other row keeps
  what it held. `tile` and `putTile` say that on plain arrays; the lemmas read a whole scratch buffer, or a whole
  staging buffer, after such a store, and give the tile's row offset as the kernel computes it in closed form.
-/
import proofs.«162220_g47519518163636_cont_8to1_c_297_4_alg».proof.Proof.Gen.KernelIdeal.Skeleton
import Idealize.ShloMosaic.Lib.Pipeline.Frame
import Idealize.ShloMosaic.Lib.Pipeline.Value
import Idealize.ShloMosaic.Lib.WritesUnit
import Idealize.ShloMosaic.Lib.WholeRead
import Idealize.ShloMosaic.Lib.ValueIdx

noncomputable section

namespace Cert.KernelIdeal.Hand

open Cert.KernelIdeal Cert.KernelIdeal.Gen Idealize.ShloMosaic Idealize.ShloMosaic.ValueIdx

variable {F : FTy → Type} [FloatOps F]

/-- The inner grid coordinate is below five. -/
theorem i1_lt (i : grid0.Coords) : (i 1).val < 5 := (i 1).isLt

/-- Tile `i 1` of the scratch array: its rows 1024·(i 1) … 1024·(i 1) + 1023. -/
def tile (i : grid0.Coords) (xs : Vec F S5120x1024 .f32) : Vec F S1024x1024 .f32 := fun y =>
  xs (ix2 (⟨1024 * (i 1).val + (y 0).val, by have := i1_lt i; have h0 : (y 0).val < 1024 := (y 0).isLt; omega⟩ : Fin 5120) (⟨(y 1).val, (y 1).isLt⟩ : Fin 1024))

/-- The scratch array with tile `i 1` overwritten by `P`, every other row kept. -/
def putTile (i : grid0.Coords) (xs : Vec F S5120x1024 .f32) (P : Vec F S1024x1024 .f32) : Vec F S5120x1024 .f32 := fun y =>
  if h : 1024 * (i 1).val ≤ (y (0 : Fin 2)).val ∧ (y (0 : Fin 2)).val < 1024 * (i 1).val + 1024 then
    P (Rect.unitLocal (s := S5120x1024) (off := ![1024 * (i 1).val, 0]) (size := S1024x1024.size) y (Rect.unit_rows_mem y rfl rfl h))
  else xs y

/-- A row of the overwritten tile reads the new value at the row's place in the tile. -/
theorem putTile_of_mem (i : grid0.Coords) (xs : Vec F S5120x1024 .f32) (P : Vec F S1024x1024 .f32) (ρ j : Fin 1024) :
    putTile i xs P (ix2 (⟨1024 * (i 1).val + ρ.val, by have := i1_lt i; omega⟩ : Fin 5120) j) = P (ix2 ρ j) := by
  have h : 1024 * (i 1).val ≤ 1024 * (i 1).val + ρ.val ∧ 1024 * (i 1).val + ρ.val < 1024 * (i 1).val + 1024 := by
    have := ρ.isLt; omega
  unfold putTile
  refine (dif_pos h).trans (congrArg P ?_)
  refine funext (Fin.forall_fin_two.mpr ⟨Fin.ext ?_, Fin.ext ?_⟩)
  · show 1024 * (i 1).val + ρ.val - 1024 * (i 1).val = ρ.val
    omega
  · show j.val - 0 = j.val
    omega

/-- A row outside the overwritten tile reads what the array held. -/
theorem putTile_of_not_mem (i : grid0.Coords) (xs : Vec F S5120x1024 .f32) (P : Vec F S1024x1024 .f32) (y : S5120x1024.Idx)
    (h : ¬(1024 * (i 1).val ≤ (y (0 : Fin 2)).val ∧ (y (0 : Fin 2)).val < 1024 * (i 1).val + 1024)) :
    putTile i xs P y = xs y := by
  unfold putTile
  exact dif_neg h

/-- The tile read at its row ρ and column j. -/
theorem tile_apply (i : grid0.Coords) (xs : Vec F S5120x1024 .f32) (ρ j : Fin 1024) :
    tile i xs (ix2 ρ j) = xs (ix2 (⟨1024 * (i 1).val + ρ.val, by have := i1_lt i; omega⟩ : Fin 5120) j) := by
  unfold tile
  rfl

/-- Reading back the tile just stored gives the stored value. -/
theorem tile_putTile (i : grid0.Coords) (xs : Vec F S5120x1024 .f32) (P : Vec F S1024x1024 .f32) :
    tile i (putTile i xs P) = P := by
  funext y
  obtain ⟨ρ, j, rfl⟩ : ∃ (ρ j : Fin 1024), y = ix2 ρ j := ⟨y 0, y 1, eq_ix2 y⟩
  rw [tile_apply, putTile_of_mem]

/-- The inner coordinate times 1024, computed in 32-bit words, is the product of the naturals: it is below 5120. -/
private theorem off_word : ∀ a : Fin 5,
    (Scalar.indexCast (Scalar.muli (BitVec.ofNat 32 a.val) 1024#32)).toNat = 1024 * a.val := by decide

private theorem off_word' (n : ℕ) (h : n < 5) :
    (Scalar.indexCast (Scalar.muli (BitVec.ofNat 32 n) 1024#32)).toNat = 1024 * n := off_word ⟨n, h⟩

/-- The tile's offsets as the kernel computes them (32-bit words: the inner coordinate times 1024): row 1024·(i 1), column 0. -/
theorem off1_eq (i : grid0.Coords) : k0_off1 i = ![1024 * (i 1).val, 0] := by
  have h := off_word' (i 1).val (i1_lt i)
  unfold k0_off1
  dsimp only
  rw [h]
theorem off2_eq (i : grid0.Coords) : k0_off2 i = ![1024 * (i 1).val, 0] := by
  have h := off_word' (i 1).val (i1_lt i)
  unfold k0_off2
  dsimp only
  rw [h]
theorem off3_eq (i : grid0.Coords) : k0_off3 i = ![1024 * (i 1).val, 0] := by
  have h := off_word' (i 1).val (i1_lt i)
  unfold k0_off3
  dsimp only
  rw [h]

/-- A load of a whole staging buffer, through the rectangle at offsets zero of the buffer's own size, is its contents. -/
theorem readAt_whole {d : Fin 2 → ℕ} (M : Memref sig .tc .vmem (⟨2, d⟩ : Shape) .f32) (hM : M.IsWhole)
    (inb : ∀ a, (![0, 0] : Fin 2 → ℕ) a + (⟨2, d⟩ : Shape).size a ≤ (⟨2, d⟩ : Shape).size a) (X : Vec F (⟨2, d⟩ : Shape) .f32) :
    View.readAt (Elt F) M.view (Rect.unit (s := (⟨2, d⟩ : Shape)) ![0, 0] (⟨2, d⟩ : Shape).size inb).toLoadRect (hM.unread X) = X := by
  funext x
  rw [hM.readAt_unread X _ x]
  refine congrArg X ?_
  refine funext (Fin.forall_fin_two.mpr ⟨Fin.ext ?_, Fin.ext ?_⟩)
  · show 0 + 1 * (x 0).val = (x 0).val
    omega
  · show 0 + 1 * (x 1).val = (x 1).val
    omega

/-- A whole staging buffer after an unmasked store of `P` through that same rectangle holds `P`, whatever it held. -/
theorem read_store_whole {d : Fin 2 → ℕ} (M : Memref sig .tc .vmem (⟨2, d⟩ : Shape) .f32) (hM : M.IsWhole)
    (inb : ∀ a, (![0, 0] : Fin 2 → ℕ) a + (⟨2, d⟩ : Shape).size a ≤ (⟨2, d⟩ : Shape).size a)
    (f : M.view.ty.Contents (Elt F)) (P : Vec F (⟨2, d⟩ : Shape) .f32) :
    M.view.read (Elt F) (M.view.writes (Elt F) f [⟨Rect.unit (s := (⟨2, d⟩ : Shape)) ![0, 0] (⟨2, d⟩ : Shape).size inb, P⟩]) = P := by
  funext y
  refine View.read_writes_cons_unit_of_mem M.view f inb P [] y y rfl (Fin.forall_fin_two.mpr ⟨?_, ?_⟩)
  · show (y 0).val = 0 + (y 0).val
    omega
  · show (y 1).val = 0 + (y 1).val
    omega

/-- The scratch buffer after a store of `P` through tile `i 1`'s rectangle: `putTile`. -/
theorem read_store_tile (M : Memref sig .tc .vmem S5120x1024 .f32) (hM : M.IsWhole) (i : grid0.Coords) (off : Fin 2 → ℕ)
    (hoff : off = ![1024 * (i 1).val, 0]) (inb : ∀ a, off a + S1024x1024.size a ≤ S5120x1024.size a)
    (xs : Vec F S5120x1024 .f32) (P : Vec F S1024x1024 .f32) :
    M.view.read (Elt F) (M.view.writes (Elt F) (hM.unread xs) [⟨Rect.unit (s := S5120x1024) off S1024x1024.size inb, P⟩])
      = putTile i xs P := by
  funext y
  rw [View.read_writes_cons_rows M.view (hM.unread xs) inb P [] y (o := 1024 * (i 1).val) (W := 1024) hoff rfl rfl,
    View.writes_nil, hM.read_unread]
  unfold putTile
  rfl

/-- A load through tile `i 1`'s rectangle reads the tile of what the buffer holds. -/
theorem readAt_tile (M : Memref sig .tc .vmem S5120x1024 .f32) (i : grid0.Coords) (off : Fin 2 → ℕ)
    (hoff : off = ![1024 * (i 1).val, 0]) (inb : ∀ a, off a + S1024x1024.size a ≤ S5120x1024.size a)
    (f : M.view.ty.Contents (Elt F)) :
    View.readAt (Elt F) M.view (Rect.unit (s := S5120x1024) off S1024x1024.size inb).toLoadRect f
      = tile i (M.view.read (Elt F) f) := by
  subst hoff
  funext x
  rw [View.readAt_apply]
  unfold tile
  refine congrArg (M.view.read (Elt F) f) ?_
  refine funext (Fin.forall_fin_two.mpr ⟨Fin.ext ?_, Fin.ext ?_⟩)
  · show 1024 * (i 1).val + 1 * (x 0).val = 1024 * (i 1).val + (x 0).val
    omega
  · show 0 + 1 * (x 1).val = (x 1).val
    omega

end Cert.KernelIdeal.Hand

end
-- ==== Proof.KI.Run.lean ====
/-
  The kernel body run once, at one grid point, on any whole staging buffers and any whole scratch buffer, in each
  of the three situations the outer grid coordinate k puts it in. At k = 0 the step's block of the first product is
  stored into the step's tile of the scratch. At 0 < k it is added to what the tile held. At the last k, after that
  addition, the tile is read back and the two output blocks are computed from it and stored whole. Nothing else is
  written: every input buffer ends as it began, and every other tile of the scratch keeps what it held. Stated for
  any float instance: the stored values are the body's own terms of what the buffers held.
-/
import proofs.«162220_g47519518163636_cont_8to1_c_297_4_alg».proof.Proof.Gen.KernelIdeal.Launch
import proofs.«162220_g47519518163636_cont_8to1_c_297_4_alg».proof.Proof.Gen.KernelIdeal.Skeleton
import proofs.«162220_g47519518163636_cont_8to1_c_297_4_alg».proof.Proof.Gen.KernelIdeal.Points
import proofs.«162220_g47519518163636_cont_8to1_c_297_4_alg».proof.Proof.KI.Tile
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load through the rectangle of the newest store, however its offsets are spelt, reads that store's value. -/
theorem readCov_same (M : Memref sig .tc .vmem S5120x1024 .f32) (off off' : Fin 2 → ℕ) (h : off = off')
    (inb : ∀ a, off a + S1024x1024.size a ≤ S5120x1024.size a) (inb' : ∀ a, off' a + S1024x1024.size a ≤ S5120x1024.size a)
    (P : (Rect.unit (s := S5120x1024) off S1024x1024.size inb).shape.Idx → Elt F .f32) (L : List (View.Piece (Elt F) S5120x1024 .f32)) :
    M.view.readCov (⟨Rect.unit (s := S5120x1024) off S1024x1024.size inb, P⟩ :: L)
      (Rect.unit (s := S5120x1024) off' S1024x1024.size inb').toLoadRect = P := by
  subst h
  exact View.readCov_cons_toLoadRect _ _ _ _

set_option maxHeartbeats 4000000 in
/-- First step of the outer axis: the step's tile of the scratch ends holding the step's block of the first product. -/
theorem runA (c : Dev nD) (i : grid0.Coords) (arg2 : Memref sig .tc .vmem S1024x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x91 .f32) (harg7 : arg7.IsWhole) (arg8 : Memref sig .tc .vmem S1x91 .f32) (harg8 : arg8.IsWhole) (arg9 : Memref sig .tc .vmem S1024x364 .f32) (harg9 : arg9.IsWhole) (arg10 : Memref sig .tc .vmem S1x364 .f32) (harg10 : arg10.IsWhole) (arg11 : Memref sig .tc .vmem S1024x91 .f32) (harg11 : arg11.IsWhole) (arg12 : Memref sig .tc .vmem S1024x364 .f32) (harg12 : arg12.IsWhole) (arg13 : Memref sig .tc .vmem S5120x1024 .f32) (harg13 : arg13.IsWhole)
    (hc1 : k0_cond1 i = 1#1) (hc2 : ¬ k0_cond2 i = 1#1) (hc3 : ¬ k0_cond3 i = 1#1)
    (x0 : Vec F S1024x896 .f32) (x1 : Vec F S896x1024 .f32) (xs : Vec F S5120x1024 .f32)
    (E : Set ℕ) (K : PUnit → sProp 𝕄) :
    iprop(owns (c : Thread nD τ) arg2 fullShare x0 ∗ owns (c : Thread nD τ) arg3 fullShare x1 ∗ owns (c : Thread nD τ) arg13 fullShare xs
        ∗ (iprop(owns (c : Thread nD τ) arg2 fullShare x0 ∗ owns (c : Thread nD τ) arg3 fullShare x1
            ∗ owns (c : Thread nD τ) arg13 fullShare (putTile i xs (k0_pay2 x0 x1))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg13.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [readAt_whole arg2 harg2, readAt_whole arg3 harg3]
  exact read_store_tile arg13 harg13 i _ (off1_eq i) _ xs _

set_option maxHeartbeats 4000000 in
/-- A later step that is not the last: the step's tile ends holding what it held plus the step's block. -/
theorem runB (c : Dev nD) (i : grid0.Coords) (arg2 : Memref sig .tc .vmem S1024x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x91 .f32) (harg7 : arg7.IsWhole) (arg8 : Memref sig .tc .vmem S1x91 .f32) (harg8 : arg8.IsWhole) (arg9 : Memref sig .tc .vmem S1024x364 .f32) (harg9 : arg9.IsWhole) (arg10 : Memref sig .tc .vmem S1x364 .f32) (harg10 : arg10.IsWhole) (arg11 : Memref sig .tc .vmem S1024x91 .f32) (harg11 : arg11.IsWhole) (arg12 : Memref sig .tc .vmem S1024x364 .f32) (harg12 : arg12.IsWhole) (arg13 : Memref sig .tc .vmem S5120x1024 .f32) (harg13 : arg13.IsWhole)
    (hc1 : ¬ k0_cond1 i = 1#1) (hc2 : k0_cond2 i = 1#1) (hc3 : ¬ k0_cond3 i = 1#1)
    (x0 : Vec F S1024x896 .f32) (x1 : Vec F S896x1024 .f32) (xs : Vec F S5120x1024 .f32)
    (E : Set ℕ) (K : PUnit → sProp 𝕄) :
    iprop(owns (c : Thread nD τ) arg2 fullShare x0 ∗ owns (c : Thread nD τ) arg3 fullShare x1 ∗ owns (c : Thread nD τ) arg13 fullShare xs
        ∗ (iprop(owns (c : Thread nD τ) arg2 fullShare x0 ∗ owns (c : Thread nD τ) arg3 fullShare x1
            ∗ owns (c : Thread nD τ) arg13 fullShare (putTile i xs (k0_pay3 x0 x1 (tile i xs)))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg13.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [readAt_whole arg2 harg2, readAt_whole arg3 harg3, readAt_tile arg13 i _ (off2_eq i), harg13.read_unread]
  exact read_store_tile arg13 harg13 i _ (off2_eq i) _ xs _

set_option maxHeartbeats 8000000 in
/-- The last step of the outer axis: after the addition the tile is read back, the two output blocks are computed from it
    and the weights' blocks, and stored whole over whatever the output buffers held. -/
theorem runC (c : Dev nD) (i : grid0.Coords) (arg2 : Memref sig .tc .vmem S1024x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x91 .f32) (harg7 : arg7.IsWhole) (arg8 : Memref sig .tc .vmem S1x91 .f32) (harg8 : arg8.IsWhole) (arg9 : Memref sig .tc .vmem S1024x364 .f32) (harg9 : arg9.IsWhole) (arg10 : Memref sig .tc .vmem S1x364 .f32) (harg10 : arg10.IsWhole) (arg11 : Memref sig .tc .vmem S1024x91 .f32) (harg11 : arg11.IsWhole) (arg12 : Memref sig .tc .vmem S1024x364 .f32) (harg12 : arg12.IsWhole) (arg13 : Memref sig .tc .vmem S5120x1024 .f32) (harg13 : arg13.IsWhole)
    (hc1 : ¬ k0_cond1 i = 1#1) (hc2 : k0_cond2 i = 1#1) (hc3 : k0_cond3 i = 1#1)
    (x0 : Vec F S1024x896 .f32) (x1 : Vec F S896x1024 .f32) (x2 : Vec F S1x1024 .f32) (x3 : Vec F S1024x1024 .f32) (x4 : Vec F S1x1024 .f32)
    (x5 : Vec F S1024x91 .f32) (x6 : Vec F S1x91 .f32) (x7 : Vec F S1024x364 .f32) (x8 : Vec F S1x364 .f32)
    (x9 : Vec F S1024x91 .f32) (x10 : Vec F S1024x364 .f32) (xs : Vec F S5120x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ owns (c : Thread nD τ) arg11 fullShare x9 ∗ owns (c : Thread nD τ) arg12 fullShare x10
        ∗ owns (c : Thread nD τ) arg13 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (k0_pay5 (k0_pay3 x0 x1 (tile i xs)) x2 x3 x4 x5 x6)
            ∗ owns (c : Thread nD τ) arg12 fullShare (k0_pay6 (k0_pay3 x0 x1 (tile i xs)) x2 x3 x4 x7 x8)
            ∗ owns (c : Thread nD τ) arg13 fullShare (putTile i xs (k0_pay3 x0 x1 (tile i xs)))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    sl_unfold_run_names
    rw [read_store_whole arg11 harg11, readCov_same arg13 _ _ ((off2_eq i).trans (off3_eq i).symm), readAt_whole arg2 harg2,
      readAt_whole arg3 harg3, readAt_tile arg13 i _ (off2_eq i), harg13.read_unread, readAt_whole arg4 harg4, readAt_whole arg5 harg5,
      readAt_whole arg6 harg6, readAt_whole arg7 harg7, readAt_whole arg8 harg8]
  isplitl [H10]
  · iexists _; isplitr
    swap; · iexact H10
    ipureintro
    sl_unfold_run_names
    rw [read_store_whole arg12 harg12, readCov_same arg13 _ _ ((off2_eq i).trans (off3_eq i).symm), readAt_whole arg2 harg2,
      readAt_whole arg3 harg3, readAt_tile arg13 i _ (off2_eq i), harg13.read_unread, readAt_whole arg4 harg4, readAt_whole arg5 harg5,
      readAt_whole arg6 harg6, readAt_whole arg9 harg9, readAt_whole arg10 harg10]
  iexists _; isplitr
  swap; · iexact HS
  ipureintro
  sl_unfold_run_names
  rw [readAt_whole arg2 harg2, readAt_whole arg3 harg3, readAt_tile arg13 i _ (off2_eq i), harg13.read_unread]
  exact read_store_tile arg13 harg13 i _ (off2_eq i) _ xs _

end Cert.KernelIdeal.Hand

end
-- ==== Proof.Mid.lean ====
/-
  The mathematics shared by the two programs, over the extended reals, with no program in sight.

  Both programs compute, for a row of the input and a column of an output head,
    tail s = (Σ_l relu((Σ_j relu(s j + b1 j) · W2 j l) + b2 l) · Wo l c) + bo c
  of the row's first-layer products s j = Σ_n x n · W1 n j (relu y = max y 0). The reference contracts all
  12544 terms of s j at once; the kernel adds fourteen blocks of 896 terms, one per step of its outer grid
  axis, the first block stored and each later one added to what is kept. Addition on the extended reals is
  commutative and associative, so the two groupings agree: `acc_last`.
-/
import Mathlib.Data.EReal.Operations
import Mathlib.Algebra.BigOperators.Fin
import Mathlib.Algebra.BigOperators.Intervals
import Mathlib.Data.Fintype.BigOperators
import Mathlib.Logic.Equiv.Fin.Basic

namespace Cert.Mid

open Finset

/-- Block `k` of a contraction over 12544 terms cut in blocks of 896: the terms 896·k … 896·k + 895 of
    `Σ_n x n · w n` (a term past the end, which no block k < 14 has, counts as zero). -/
noncomputable def blk (x w : Fin 12544 → EReal) (k : ℕ) : EReal :=
  ∑ l : Fin 896, if h : 896 * k + l.val < 12544 then x ⟨896 * k + l.val, h⟩ * w ⟨896 * k + l.val, h⟩ else 0

/-- For a block inside the contraction the guard is always met. -/
theorem blk_eq (x w : Fin 12544 → EReal) (k : ℕ) (hk : k < 14) :
    blk x w k = ∑ l : Fin 896, x ⟨896 * k + l.val, by have := l.isLt; omega⟩ * w ⟨896 * k + l.val, by have := l.isLt; omega⟩ := by
  unfold blk
  refine Finset.sum_congr rfl fun l _ => ?_
  have h : 896 * k + l.val < 12544 := by have := l.isLt; omega
  rw [dif_pos h]

/-- What is kept after block `k`: the blocks 0 … k added in order. -/
noncomputable def acc (x w : Fin 12544 → EReal) (k : ℕ) : EReal := ∑ kk ∈ range (k + 1), blk x w kk

theorem acc_zero (x w : Fin 12544 → EReal) : acc x w 0 = blk x w 0 := by
  unfold acc
  rw [Nat.zero_add, Finset.sum_range_one]

theorem acc_succ (x w : Fin 12544 → EReal) (k : ℕ) : acc x w (k + 1) = acc x w k + blk x w (k + 1) := by
  unfold acc
  rw [Finset.sum_range_succ]

/-- The pair (block, place in the block) ↦ 896·block + place numbers the 12544 terms once each. -/
private def cut : Fin 14 × Fin 896 ≃ Fin 12544 :=
  finProdFinEquiv.trans (finCongr (by norm_num))

private theorem cut_val (p : Fin 14 × Fin 896) : (cut p).val = 896 * p.1.val + p.2.val := by
  show p.2.val + 896 * p.1.val = 896 * p.1.val + p.2.val
  exact Nat.add_comm _ _

/-- After the fourteenth block everything has been added: the whole contraction. -/
theorem acc_last (x w : Fin 12544 → EReal) : acc x w 13 = ∑ n : Fin 12544, x n * w n := by
  unfold acc
  -- the fourteen blocks, indexed by Fin 14, each without its guard
  rw [Finset.sum_range (fun kk => blk x w kk)]
  have hb : ∀ kk : Fin 14, blk x w kk.val = ∑ l : Fin 896, x (cut (kk, l)) * w (cut (kk, l)) := by
    intro kk
    rw [blk_eq x w kk.val kk.isLt]
    refine Finset.sum_congr rfl fun l _ => ?_
    have e : cut (kk, l) = ⟨896 * kk.val + l.val, by have := l.isLt; have := kk.isLt; omega⟩ :=
      Fin.ext (cut_val (kk, l))
    rw [e]
  rw [Finset.sum_congr rfl fun kk _ => hb kk]
  -- a double sum over blocks and places is a sum over pairs, and the pairs number the terms
  rw [← Fintype.sum_prod_type (fun p : Fin 14 × Fin 896 => x (cut p) * w (cut p))]
  exact Fintype.sum_equiv cut _ _ fun _ => rfl

/-- Everything after the first product, for one row (`s`: the row of first-layer products) and one column `c` of an
    output head of `n` columns. -/
noncomputable def tail {n : ℕ} (s b1 : Fin 1024 → EReal) (W2 : Fin 1024 → Fin 1024 → EReal) (b2 : Fin 1024 → EReal)
    (Wo : Fin 1024 → Fin n → EReal) (bo : Fin n → EReal) (c : Fin n) : EReal :=
  (∑ l : Fin 1024, max ((∑ j : Fin 1024, max (s j + b1 j) 0 * W2 j l) + b2 l) 0 * Wo l c) + bo c

end Cert.Mid
-- ==== Proof.KPay.lean ====
/-
  The kernel body's stored values read at an index, at the exact extended reals: each of its matrix products into
  a zero accumulator is the plain sum over the contracted axis, a bias row is added to every row, and relu is
  `max · 0`. So entry (ρ, j) of what a grid step stores into its tile of the kept first-layer products is that
  row's block of 896 terms (added to what was kept, after the first step), and entry (ρ, c) of what the last step
  stores into an output block is `Cert.Mid.tail` of row ρ of the tile.
-/
import proofs.«162220_g47519518163636_cont_8to1_c_297_4_alg».proof.Proof.Gen.KernelIdeal.Skeleton
import proofs.«162220_g47519518163636_cont_8to1_c_297_4_alg».proof.Proof.Mid
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.ValueIdx

/-! ## The matrix products read at an index

Each of the four products contracts the left operand's second axis with the right operand's first: entry (ρ, c) of the
result is the sum over the contracted place k of left (ρ, k) times right (k, c). -/

private theorem lhs_d1_0 (i : S1024x1024.Idx) (q : dot_S1024x896_S896x1024_S1024x1024_1_0_0_1_n_n.contr.Idx) :
    (dot_S1024x896_S896x1024_S1024x1024_1_0_0_1_n_n.lhsIdx i q 0).val = (i 0).val := by
  unfold DotDims.lhsIdx
  rw [dif_neg (show ¬(0 : Fin S1024x896.rank) ∈ dot_S1024x896_S896x1024_S1024x1024_1_0_0_1_n_n.lhsBatch by decide), dif_pos (show (0 : Fin S1024x896.rank) ∈ dot_S1024x896_S896x1024_S1024x1024_1_0_0_1_n_n.lhsNonContracting by decide)]
  rfl
private theorem lhs_d1_1 (i : S1024x1024.Idx) (q : dot_S1024x896_S896x1024_S1024x1024_1_0_0_1_n_n.contr.Idx) :
    (dot_S1024x896_S896x1024_S1024x1024_1_0_0_1_n_n.lhsIdx i q 1).val = (q ⟨0, by decide⟩).val :=
  dot_S1024x896_S896x1024_S1024x1024_1_0_0_1_n_n.lhsIdx_val_of_single rfl i q
private theorem rhs_d1_0 (i : S1024x1024.Idx) (q : dot_S1024x896_S896x1024_S1024x1024_1_0_0_1_n_n.contr.Idx) :
    (dot_S1024x896_S896x1024_S1024x1024_1_0_0_1_n_n.rhsIdx i q 0).val = (q ⟨0, by decide⟩).val :=
  dot_S1024x896_S896x1024_S1024x1024_1_0_0_1_n_n.rhsIdx_val_of_single rfl i q
private theorem rhs_d1_1 (i : S1024x1024.Idx) (q : dot_S1024x896_S896x1024_S1024x1024_1_0_0_1_n_n.contr.Idx) :
    (dot_S1024x896_S896x1024_S1024x1024_1_0_0_1_n_n.rhsIdx i q 1).val = (i 1).val := by
  unfold DotDims.rhsIdx
  rw [dif_neg (show ¬(1 : Fin S896x1024.rank) ∈ dot_S1024x896_S896x1024_S1024x1024_1_0_0_1_n_n.rhsBatch by decide), dif_pos (show (1 : Fin S896x1024.rank) ∈ dot_S1024x896_S896x1024_S1024x1024_1_0_0_1_n_n.rhsNonContracting by decide)]
  rfl
/-- The product of the first layer's block into a zero accumulator, entry by entry. -/
private theorem mm1_apply (a : FVec Ideal S1024x896 .f32) (b : FVec Ideal S896x1024 .f32) (ρ : Fin 1024) (c : Fin 1024) :
    FloatOps.matmul dot_S1024x896_S896x1024_S1024x1024_1_0_0_1_n_n none a b (constant (F := Ideal) S1024x1024 .f32 0x00000000#32) (ix2 ρ c)
      = ∑ k : Fin 896, a (ix2 ρ k) * b (ix2 k c) := by
  rw [Ideal.matmul_constant_zero_apply, ← Equiv.sum_comp (contrEquiv1 dot_S1024x896_S896x1024_S1024x1024_1_0_0_1_n_n 896 rfl rfl).symm]
  refine Finset.sum_congr rfl fun k _ => ?_
  have hk := contrEquiv1_symm_val dot_S1024x896_S896x1024_S1024x1024_1_0_0_1_n_n 896 rfl rfl k
  have el : dot_S1024x896_S896x1024_S1024x1024_1_0_0_1_n_n.lhsIdx (ix2 ρ c) ((contrEquiv1 dot_S1024x896_S896x1024_S1024x1024_1_0_0_1_n_n 896 rfl rfl).symm k) = ix2 ρ k := funext fun x => Fin.ext (by
    match x with
    | ⟨0, _⟩ => exact lhs_d1_0 _ _
    | ⟨1, _⟩ => exact (lhs_d1_1 _ _).trans hk)
  have er : dot_S1024x896_S896x1024_S1024x1024_1_0_0_1_n_n.rhsIdx (ix2 ρ c) ((contrEquiv1 dot_S1024x896_S896x1024_S1024x1024_1_0_0_1_n_n 896 rfl rfl).symm k) = ix2 k c := funext fun x => Fin.ext (by
    match x with
    | ⟨0, _⟩ => exact (rhs_d1_0 _ _).trans hk
    | ⟨1, _⟩ => exact rhs_d1_1 _ _)
  rw [el, er]

private theorem lhs_d2_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
private theorem lhs_d2_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
private theorem rhs_d2_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
private theorem rhs_d2_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl
/-- The product of the second layer into a zero accumulator, entry by entry. -/
private theorem mm2_apply (a : FVec Ideal S1024x1024 .f32) (b : FVec Ideal S1024x1024 .f32) (ρ : Fin 1024) (c : Fin 1024) :
    FloatOps.matmul dot_S1024x1024_S1024x1024_S1024x1024_1_0_0_1_n_n none a b (constant (F := Ideal) S1024x1024 .f32 0x00000000#32) (ix2 ρ c)
      = ∑ k : Fin 1024, a (ix2 ρ k) * b (ix2 k c) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 ρ c) ((contrEquiv1 dot_S1024x1024_S1024x1024_S1024x1024_1_0_0_1_n_n 1024 rfl rfl).symm k) = ix2 ρ k := funext fun x => Fin.ext (by
    match x with
    | ⟨0, _⟩ => exact lhs_d2_0 _ _
    | ⟨1, _⟩ => exact (lhs_d2_1 _ _).trans hk)
  have er : dot_S1024x1024_S1024x1024_S1024x1024_1_0_0_1_n_n.rhsIdx (ix2 ρ c) ((contrEquiv1 dot_S1024x1024_S1024x1024_S1024x1024_1_0_0_1_n_n 1024 rfl rfl).symm k) = ix2 k c := funext fun x => Fin.ext (by
    match x with
    | ⟨0, _⟩ => exact (rhs_d2_0 _ _).trans hk
    | ⟨1, _⟩ => exact rhs_d2_1 _ _)
  rw [el, er]

private theorem lhs_d3_0 (i : S1024x91.Idx) (q : dot_S1024x1024_S1024x91_S1024x91_1_0_0_1_n_n.contr.Idx) :
    (dot_S1024x1024_S1024x91_S1024x91_1_0_0_1_n_n.lhsIdx i q 0).val = (i 0).val := by
  unfold DotDims.lhsIdx
  rw [dif_neg (show ¬(0 : Fin S1024x1024.rank) ∈ dot_S1024x1024_S1024x91_S1024x91_1_0_0_1_n_n.lhsBatch by decide), dif_pos (show (0 : Fin S1024x1024.rank) ∈ dot_S1024x1024_S1024x91_S1024x91_1_0_0_1_n_n.lhsNonContracting by decide)]
  rfl
private theorem lhs_d3_1 (i : S1024x91.Idx) (q : dot_S1024x1024_S1024x91_S1024x91_1_0_0_1_n_n.contr.Idx) :
    (dot_S1024x1024_S1024x91_S1024x91_1_0_0_1_n_n.lhsIdx i q 1).val = (q ⟨0, by decide⟩).val :=
  dot_S1024x1024_S1024x91_S1024x91_1_0_0_1_n_n.lhsIdx_val_of_single rfl i q
private theorem rhs_d3_0 (i : S1024x91.Idx) (q : dot_S1024x1024_S1024x91_S1024x91_1_0_0_1_n_n.contr.Idx) :
    (dot_S1024x1024_S1024x91_S1024x91_1_0_0_1_n_n.rhsIdx i q 0).val = (q ⟨0, by decide⟩).val :=
  dot_S1024x1024_S1024x91_S1024x91_1_0_0_1_n_n.rhsIdx_val_of_single rfl i q
private theorem rhs_d3_1 (i : S1024x91.Idx) (q : dot_S1024x1024_S1024x91_S1024x91_1_0_0_1_n_n.contr.Idx) :
    (dot_S1024x1024_S1024x91_S1024x91_1_0_0_1_n_n.rhsIdx i q 1).val = (i 1).val := by
  unfold DotDims.rhsIdx
  rw [dif_neg (show ¬(1 : Fin S1024x91.rank) ∈ dot_S1024x1024_S1024x91_S1024x91_1_0_0_1_n_n.rhsBatch by decide), dif_pos (show (1 : Fin S1024x91.rank) ∈ dot_S1024x1024_S1024x91_S1024x91_1_0_0_1_n_n.rhsNonContracting by decide)]
  rfl
/-- The product of the first head into a zero accumulator, entry by entry. -/
private theorem mm3_apply (a : FVec Ideal S1024x1024 .f32) (b : FVec Ideal S1024x91 .f32) (ρ : Fin 1024) (c : Fin 91) :
    FloatOps.matmul dot_S1024x1024_S1024x91_S1024x91_1_0_0_1_n_n none a b (constant (F := Ideal) S1024x91 .f32 0x00000000#32) (ix2 ρ c)
      = ∑ k : Fin 1024, a (ix2 ρ k) * b (ix2 k c) := by
  rw [Ideal.matmul_constant_zero_apply, ← Equiv.sum_comp (contrEquiv1 dot_S1024x1024_S1024x91_S1024x91_1_0_0_1_n_n 1024 rfl rfl).symm]
  refine Finset.sum_congr rfl fun k _ => ?_
  have hk := contrEquiv1_symm_val dot_S1024x1024_S1024x91_S1024x91_1_0_0_1_n_n 1024 rfl rfl k
  have el : dot_S1024x1024_S1024x91_S1024x91_1_0_0_1_n_n.lhsIdx (ix2 ρ c) ((contrEquiv1 dot_S1024x1024_S1024x91_S1024x91_1_0_0_1_n_n 1024 rfl rfl).symm k) = ix2 ρ k := funext fun x => Fin.ext (by
    match x with
    | ⟨0, _⟩ => exact lhs_d3_0 _ _
    | ⟨1, _⟩ => exact (lhs_d3_1 _ _).trans hk)
  have er : dot_S1024x1024_S1024x91_S1024x91_1_0_0_1_n_n.rhsIdx (ix2 ρ c) ((contrEquiv1 dot_S1024x1024_S1024x91_S1024x91_1_0_0_1_n_n 1024 rfl rfl).symm k) = ix2 k c := funext fun x => Fin.ext (by
    match x with
    | ⟨0, _⟩ => exact (rhs_d3_0 _ _).trans hk
    | ⟨1, _⟩ => exact rhs_d3_1 _ _)
  rw [el, er]

private theorem lhs_d4_0 (i : S1024x364.Idx) (q : dot_S1024x1024_S1024x364_S1024x364_1_0_0_1_n_n.contr.Idx) :
    (dot_S1024x1024_S1024x364_S1024x364_1_0_0_1_n_n.lhsIdx i q 0).val = (i 0).val := by
  unfold DotDims.lhsIdx
  rw [dif_neg (show ¬(0 : Fin S1024x1024.rank) ∈ dot_S1024x1024_S1024x364_S1024x364_1_0_0_1_n_n.lhsBatch by decide), dif_pos (show (0 : Fin S1024x1024.rank) ∈ dot_S1024x1024_S1024x364_S1024x364_1_0_0_1_n_n.lhsNonContracting by decide)]
  rfl
private theorem lhs_d4_1 (i : S1024x364.Idx) (q : dot_S1024x1024_S1024x364_S1024x364_1_0_0_1_n_n.contr.Idx) :
    (dot_S1024x1024_S1024x364_S1024x364_1_0_0_1_n_n.lhsIdx i q 1).val = (q ⟨0, by decide⟩).val :=
  dot_S1024x1024_S1024x364_S1024x364_1_0_0_1_n_n.lhsIdx_val_of_single rfl i q
private theorem rhs_d4_0 (i : S1024x364.Idx) (q : dot_S1024x1024_S1024x364_S1024x364_1_0_0_1_n_n.contr.Idx) :
    (dot_S1024x1024_S1024x364_S1024x364_1_0_0_1_n_n.rhsIdx i q 0).val = (q ⟨0, by decide⟩).val :=
  dot_S1024x1024_S1024x364_S1024x364_1_0_0_1_n_n.rhsIdx_val_of_single rfl i q
private theorem rhs_d4_1 (i : S1024x364.Idx) (q : dot_S1024x1024_S1024x364_S1024x364_1_0_0_1_n_n.contr.Idx) :
    (dot_S1024x1024_S1024x364_S1024x364_1_0_0_1_n_n.rhsIdx i q 1).val = (i 1).val := by
  unfold DotDims.rhsIdx
  rw [dif_neg (show ¬(1 : Fin S1024x364.rank) ∈ dot_S1024x1024_S1024x364_S1024x364_1_0_0_1_n_n.rhsBatch by decide), dif_pos (show (1 : Fin S1024x364.rank) ∈ dot_S1024x1024_S1024x364_S1024x364_1_0_0_1_n_n.rhsNonContracting by decide)]
  rfl
/-- The product of the second head into a zero accumulator, entry by entry. -/
private theorem mm4_apply (a : FVec Ideal S1024x1024 .f32) (b : FVec Ideal S1024x364 .f32) (ρ : Fin 1024) (c : Fin 364) :
    FloatOps.matmul dot_S1024x1024_S1024x364_S1024x364_1_0_0_1_n_n none a b (constant (F := Ideal) S1024x364 .f32 0x00000000#32) (ix2 ρ c)
      = ∑ k : Fin 1024, a (ix2 ρ k) * b (ix2 k c) := by
  rw [Ideal.matmul_constant_zero_apply, ← Equiv.sum_comp (contrEquiv1 dot_S1024x1024_S1024x364_S1024x364_1_0_0_1_n_n 1024 rfl rfl).symm]
  refine Finset.sum_congr rfl fun k _ => ?_
  have hk := contrEquiv1_symm_val dot_S1024x1024_S1024x364_S1024x364_1_0_0_1_n_n 1024 rfl rfl k
  have el : dot_S1024x1024_S1024x364_S1024x364_1_0_0_1_n_n.lhsIdx (ix2 ρ c) ((contrEquiv1 dot_S1024x1024_S1024x364_S1024x364_1_0_0_1_n_n 1024 rfl rfl).symm k) = ix2 ρ k := funext fun x => Fin.ext (by
    match x with
    | ⟨0, _⟩ => exact lhs_d4_0 _ _
    | ⟨1, _⟩ => exact (lhs_d4_1 _ _).trans hk)
  have er : dot_S1024x1024_S1024x364_S1024x364_1_0_0_1_n_n.rhsIdx (ix2 ρ c) ((contrEquiv1 dot_S1024x1024_S1024x364_S1024x364_1_0_0_1_n_n 1024 rfl rfl).symm k) = ix2 k c := funext fun x => Fin.ext (by
    match x with
    | ⟨0, _⟩ => exact (rhs_d4_0 _ _).trans hk
    | ⟨1, _⟩ => exact rhs_d4_1 _ _)
  rw [el, er]

/-- The product of an input block and a weight block, entry by entry. -/
theorem pay1_apply (v1 : Vec Ideal S1024x896 .f32) (v2 : Vec Ideal S896x1024 .f32) (ρ j : Fin 1024) :
    k0_pay1 (F := Ideal) v1 v2 (ix2 ρ j) = ∑ l : Fin 896, v1 (ix2 ρ l) * v2 (ix2 l j) := by
  unfold k0_pay1
  exact mm1_apply v1 v2 ρ j

/-- What the first step of the outer axis stores into its tile. -/
theorem pay2_apply (v1 : Vec Ideal S1024x896 .f32) (v2 : Vec Ideal S896x1024 .f32) (ρ j : Fin 1024) :
    k0_pay2 (F := Ideal) v1 v2 (ix2 ρ j) = ∑ l : Fin 896, v1 (ix2 ρ l) * v2 (ix2 l j) := by
  unfold k0_pay2
  rw [shapeCast_self]
  exact pay1_apply v1 v2 ρ j

/-- What a later step stores: what the tile held plus this step's block. -/
theorem pay3_apply (v1 : Vec Ideal S1024x896 .f32) (v2 : Vec Ideal S896x1024 .f32) (v14 : Vec Ideal S1024x1024 .f32) (ρ j : Fin 1024) :
    k0_pay3 (F := Ideal) v1 v2 v14 (ix2 ρ j) = v14 (ix2 ρ j) + ∑ l : Fin 896, v1 (ix2 ρ l) * v2 (ix2 l j) := by
  unfold k0_pay3
  rw [shapeCast_self]
  show v14 (ix2 ρ j) + k0_pay1 (F := Ideal) v1 v2 (ix2 ρ j) = _
  rw [pay1_apply]

/-- The hidden layer's activations: a bias row added to the tile and relu, the second layer's product, its bias row and
    relu. -/
private theorem pay4_apply (v14 : Vec Ideal S1024x1024 .f32) (v15 : Vec Ideal S1x1024 .f32) (v21 : Vec Ideal S1024x1024 .f32)
    (v23 : Vec Ideal S1x1024 .f32) (ρ l : Fin 1024) :
    k0_pay4 (F := Ideal) v14 v15 v21 v23 (ix2 ρ l)
      = max ((∑ j : Fin 1024, max (v14 (ix2 ρ j) + v15 (ix2 (0 : Fin 1) j)) 0 * v21 (ix2 j l)) + v23 (ix2 (0 : Fin 1) l)) 0 := by
  unfold k0_pay4
  rw [shapeCast_self, shapeCast_self]
  show max (FloatOps.matmul dot_S1024x1024_S1024x1024_S1024x1024_1_0_0_1_n_n none
        (maximumf (addf v14 (broadcastTo S1024x1024 v15 broadcasts_S1x1024_S1024x1024)) (broadcast S1024x1024 (Scalar.ofBits .f32 0x00000000#32)))
        v21 (constant (F := Ideal) S1024x1024 .f32 0x00000000#32) (ix2 ρ l)
      + broadcastTo S1024x1024 v23 broadcasts_S1x1024_S1024x1024 (ix2 ρ l)) (Ideal.ofBits .f32 0x00000000#32) = _
  rw [mm2_apply, broadcastTo_1b_ab_apply, Ideal.ofBits_zero_f32]
  refine congrArg (fun t => max (t + v23 (ix2 (0 : Fin 1) l)) 0) (Finset.sum_congr rfl fun j _ => ?_)
  show max (v14 (ix2 ρ j) + broadcastTo S1024x1024 v15 broadcasts_S1x1024_S1024x1024 (ix2 ρ j)) (Ideal.ofBits .f32 0x00000000#32) * _ = _
  rw [broadcastTo_1b_ab_apply, Ideal.ofBits_zero_f32]

/-- The first output head's block, from the tile `v14` of first-layer products and the weights' blocks. -/
theorem pay5_apply (v14 : Vec Ideal S1024x1024 .f32) (v15 : Vec Ideal S1x1024 .f32) (v21 : Vec Ideal S1024x1024 .f32)
    (v23 : Vec Ideal S1x1024 .f32) (v29 : Vec Ideal S1024x91 .f32) (v31 : Vec Ideal S1x91 .f32) (ρ : Fin 1024) (c : Fin 91) :
    k0_pay5 (F := Ideal) v14 v15 v21 v23 v29 v31 (ix2 ρ c)
      = Cert.Mid.tail (fun j => v14 (ix2 ρ j)) (fun j => v15 (ix2 (0 : Fin 1) j)) (fun j l => v21 (ix2 j l))
          (fun l => v23 (ix2 (0 : Fin 1) l)) (fun l c => v29 (ix2 l c)) (fun c => v31 (ix2 (0 : Fin 1) c)) c := by
  unfold k0_pay5
  rw [shapeCast_self]
  show FloatOps.matmul dot_S1024x1024_S1024x91_S1024x91_1_0_0_1_n_n none (k0_pay4 (F := Ideal) v14 v15 v21 v23) v29
        (constant (F := Ideal) S1024x91 .f32 0x00000000#32) (ix2 ρ c)
      + broadcastTo S1024x91 v31 broadcasts_S1x91_S1024x91 (ix2 ρ c) = _
  rw [mm3_apply, broadcastTo_1b_ab_apply]
  unfold Cert.Mid.tail
  refine congrArg (· + v31 (ix2 (0 : Fin 1) c)) (Finset.sum_congr rfl fun l _ => ?_)
  rw [pay4_apply]

/-- The second output head's block. -/
theorem pay6_apply (v14 : Vec Ideal S1024x1024 .f32) (v15 : Vec Ideal S1x1024 .f32) (v21 : Vec Ideal S1024x1024 .f32)
    (v23 : Vec Ideal S1x1024 .f32) (v36 : Vec Ideal S1024x364 .f32) (v38 : Vec Ideal S1x364 .f32) (ρ : Fin 1024) (c : Fin 364) :
    k0_pay6 (F := Ideal) v14 v15 v21 v23 v36 v38 (ix2 ρ c)
      = Cert.Mid.tail (fun j => v14 (ix2 ρ j)) (fun j => v15 (ix2 (0 : Fin 1) j)) (fun j l => v21 (ix2 j l))
          (fun l => v23 (ix2 (0 : Fin 1) l)) (fun l c => v36 (ix2 l c)) (fun c => v38 (ix2 (0 : Fin 1) c)) c := by
  unfold k0_pay6
  rw [shapeCast_self]
  show FloatOps.matmul dot_S1024x1024_S1024x364_S1024x364_1_0_0_1_n_n none (k0_pay4 (F := Ideal) v14 v15 v21 v23) v36
        (constant (F := Ideal) S1024x364 .f32 0x00000000#32) (ix2 ρ c)
      + broadcastTo S1024x364 v38 broadcasts_S1x364_S1024x364 (ix2 ρ c) = _
  rw [mm4_apply, broadcastTo_1b_ab_apply]
  unfold Cert.Mid.tail
  refine congrArg (· + v38 (ix2 (0 : Fin 1) c)) (Finset.sum_congr rfl fun l _ => ?_)
  rw [pay4_apply]

end Cert.KernelIdeal.KPay

end
-- ==== Proof.RefSide.lean ====
/-
  The reference's two results read at an index, at the exact extended reals: entry (r, c) of each is
  `Cert.Mid.tail` of row r's first-layer products, each of those the whole contraction over the 12544 input
  features. (The reference's relu is `max · 0` against a broadcast zero; its biases are broadcast along the rows.)
-/
import proofs.«162220_g47519518163636_cont_8to1_c_297_4_alg».proof.Proof.Gen.ReferenceIdeal.Run
import proofs.«162220_g47519518163636_cont_8to1_c_297_4_alg».proof.Proof.Gen.ReferenceIdeal.Read
import proofs.«162220_g47519518163636_cont_8to1_c_297_4_alg».proof.Proof.Mid

noncomputable section

namespace Cert.ReferenceIdeal.RefSide

open Cert.ReferenceIdeal Cert.ReferenceIdeal.Gen Cert.ReferenceIdeal.Read Idealize.ShloMosaic Idealize.ShloMosaic.ValueIdx

variable (a0 : (⟨S5000x12544, .f32⟩ : BufTy).Contents (Elt Ideal)) (a1 : (⟨S12544x1024, .f32⟩ : BufTy).Contents (Elt Ideal))
  (a2 : (⟨S1024, .f32⟩ : BufTy).Contents (Elt Ideal)) (a3 : (⟨S1024x1024, .f32⟩ : BufTy).Contents (Elt Ideal))
  (a4 : (⟨S1024, .f32⟩ : BufTy).Contents (Elt Ideal)) (a5 : (⟨S1024x91, .f32⟩ : BufTy).Contents (Elt Ideal))
  (a6 : (⟨S91, .f32⟩ : BufTy).Contents (Elt Ideal)) (a7 : (⟨S1024x364, .f32⟩ : BufTy).Contents (Elt Ideal))
  (a8 : (⟨S364, .f32⟩ : BufTy).Contents (Elt Ideal))

/-! The composed index functions of the contractions and broadcasts, at an index given by its coordinates. -/

private theorem lidx0 (r : Fin 5000) (j : Fin 1024) (n : Fin 12544) : lidx_main_v0 (ix2 r j) n = ix2 r n :=
  funext fun a => Fin.ext (by match a with | ⟨0, _⟩ => rfl | ⟨1, _⟩ => rfl)
private theorem ridx0 (r : Fin 5000) (j : Fin 1024) (n : Fin 12544) : ridx_main_v0 (ix2 r j) n = ix2 n j :=
  funext fun a => Fin.ext (by match a with | ⟨0, _⟩ => rfl | ⟨1, _⟩ => rfl)
private theorem bias1 (r : Fin 5000) (j : Fin 1024) : idx_main_v1 (idx_main_v2 (ix2 r j)) = ix1 j :=
  funext fun a => Fin.ext (by match a with | ⟨0, _⟩ => rfl)
private theorem lidx5 (r : Fin 5000) (l : Fin 1024) (j : Fin 1024) : lidx_main_v5 (ix2 r l) j = ix2 r j :=
  funext fun a => Fin.ext (by match a with | ⟨0, _⟩ => rfl | ⟨1, _⟩ => rfl)
private theorem ridx5 (r : Fin 5000) (l : Fin 1024) (j : Fin 1024) : ridx_main_v5 (ix2 r l) j = ix2 j l :=
  funext fun a => Fin.ext (by match a with | ⟨0, _⟩ => rfl | ⟨1, _⟩ => rfl)
private theorem bias2 (r : Fin 5000) (l : Fin 1024) : idx_main_v6 (idx_main_v7 (ix2 r l)) = ix1 l :=
  funext fun a => Fin.ext (by match a with | ⟨0, _⟩ => rfl)
private theorem lidx10 (r : Fin 5000) (c : Fin 91) (l : Fin 1024) : lidx_main_v10 (ix2 r c) l = ix2 r l :=
  funext fun a => Fin.ext (by match a with | ⟨0, _⟩ => rfl | ⟨1, _⟩ => rfl)
private theorem ridx10 (r : Fin 5000) (c : Fin 91) (l : Fin 1024) : ridx_main_v10 (ix2 r c) l = ix2 l c :=
  funext fun a => Fin.ext (by match a with | ⟨0, _⟩ => rfl | ⟨1, _⟩ => rfl)
private theorem bias3 (r : Fin 5000) (c : Fin 91) : idx_main_v11 (idx_main_v12 (ix2 r c)) = ix1 c :=
  funext fun a => Fin.ext (by match a with | ⟨0, _⟩ => rfl)
private theorem lidx14 (r : Fin 5000) (c : Fin 364) (l : Fin 1024) : lidx_main_v14 (ix2 r c) l = ix2 r l :=
  funext fun a => Fin.ext (by match a with | ⟨0, _⟩ => rfl | ⟨1, _⟩ => rfl)
private theorem ridx14 (r : Fin 5000) (c : Fin 364) (l : Fin 1024) : ridx_main_v14 (ix2 r c) l = ix2 l c :=
  funext fun a => Fin.ext (by match a with | ⟨0, _⟩ => rfl | ⟨1, _⟩ => rfl)
private theorem bias4 (r : Fin 5000) (c : Fin 364) : idx_main_v15 (idx_main_v16 (ix2 r c)) = ix1 c :=
  funext fun a => Fin.ext (by match a with | ⟨0, _⟩ => rfl)

/-- The first hidden layer at (r, j): relu of the whole contraction plus the bias. -/
private theorem hidden1_apply (r : Fin 5000) (j : Fin 1024) :
    val_main_v4 (F := Ideal) a0 a1 a2 (ix2 r j)
      = max ((∑ n : Fin 12544, a0 (ix2 r n) * a1 (ix2 n j)) + a2 (ix1 j)) 0 := by
  rw [val_main_v4_apply, val_main_v3_apply, val_main_v0_apply, val_main_v2_apply, val_main_v1_apply,
    val_main_call0_v0_apply, val_main_call0_cst_apply]
  simp only [lidx0, ridx0, bias1, Ideal.addf_def, Ideal.maximumf_def, Ideal.ofBits_def, Ideal.ofBits_zero_f32]

/-- The second hidden layer at (r, l): relu of the contraction of the first hidden layer plus the bias. -/
private theorem hidden2_apply (r : Fin 5000) (l : Fin 1024) :
    val_main_v9 (F := Ideal) a0 a1 a2 a3 a4 (ix2 r l)
      = max ((∑ j : Fin 1024, max ((∑ n : Fin 12544, a0 (ix2 r n) * a1 (ix2 n j)) + a2 (ix1 j)) 0 * a3 (ix2 j l)) + a4 (ix1 l)) 0 := by
  rw [val_main_v9_apply, val_main_v8_apply, val_main_v5_apply, val_main_v7_apply, val_main_v6_apply,
    val_main_call1_v0_apply, val_main_call1_cst_apply]
  simp only [lidx5, ridx5, bias2, hidden1_apply, Ideal.addf_def, Ideal.maximumf_def, Ideal.ofBits_def, Ideal.ofBits_zero_f32]

/-- The first result (class scores), entry by entry. -/
theorem score_apply (r : Fin 5000) (c : Fin 91) :
    val_main_v13 (F := Ideal) a0 a1 a2 a3 a4 a5 a6 (ix2 r c)
      = Cert.Mid.tail (fun j => ∑ n : Fin 12544, a0 (ix2 r n) * a1 (ix2 n j)) (fun j => a2 (ix1 j)) (fun j l => a3 (ix2 j l))
          (fun l => a4 (ix1 l)) (fun l c => a5 (ix2 l c)) (fun c => a6 (ix1 c)) c := by
  rw [val_main_v13_apply, val_main_v10_apply, val_main_v12_apply, val_main_v11_apply]
  simp only [lidx10, ridx10, bias3, hidden2_apply, Ideal.addf_def]
  rfl

/-- The second result (box deltas), entry by entry. -/
theorem bbox_apply (r : Fin 5000) (c : Fin 364) :
    val_main_v17 (F := Ideal) a0 a1 a2 a3 a4 a7 a8 (ix2 r c)
      = Cert.Mid.tail (fun j => ∑ n : Fin 12544, a0 (ix2 r n) * a1 (ix2 n j)) (fun j => a2 (ix1 j)) (fun j l => a3 (ix2 j l))
          (fun l => a4 (ix1 l)) (fun l c => a7 (ix2 l c)) (fun c => a8 (ix1 c)) c := by
  rw [val_main_v17_apply, val_main_v14_apply, val_main_v16_apply, val_main_v15_apply]
  simp only [lidx14, ridx14, bias4, hidden2_apply, Ideal.addf_def]
  rfl

end Cert.ReferenceIdeal.RefSide

end
-- ==== Proof.KI.Defs.lean ====
/-
  The proof data of the idealized kernel's one pipeline, at the exact extended reals.

  What the run is measured against is the reference's own two results, as arrays: `refScore` and `refBbox` are the
  reference's composed terms of the nine argument arrays. After the body at a point of the last outer step each
  output's staging buffer holds, on the rows inside the array, that point's block of the reference's result (past the
  array's end, where the last row block overhangs, nothing is stated: zero stands there). The input staging buffers
  hold their blocks. Between points the scratch holds, on every row inside the array of every tile already visited,
  the first-layer products' blocks added so far (`GoodAcc`); of the rows past the array's end nothing is said, since
  what the overhanging input block held there is not named.
-/
import proofs.«162220_g47519518163636_cont_8to1_c_297_4_alg».proof.Proof.Gen.KernelIdeal.Frame
import proofs.«162220_g47519518163636_cont_8to1_c_297_4_alg».proof.Proof.KI.Run
import proofs.«162220_g47519518163636_cont_8to1_c_297_4_alg».proof.Proof.KPay
import proofs.«162220_g47519518163636_cont_8to1_c_297_4_alg».proof.Proof.RefSide
import proofs.«162220_g47519518163636_cont_8to1_c_297_4_alg».proof.Proof.Mid

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Row r of the input, and column j of the first weight matrix, as plain functions of the contracted index. -/
def xrow (c : Dev nD) (r : Fin 5000) : Fin 12544 → EReal := fun n => (m ((c : Thread nD τ).loc main_arg0)) (ix2 r n)
def wcol (c : Dev nD) (j : Fin 1024) : Fin 12544 → EReal := fun n => (m ((c : Thread nD τ).loc main_arg1)) (ix2 n j)

/-- The reference's first result (class scores) of the argument arrays on core c, as the first output array's contents. -/
def refScore (c : Dev nD) : Buf (Elt Ideal) ((c : Thread nD τ).loc main_v4_0) :=
  Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The reference's second result (box deltas). -/
def refBbox (c : Dev nD) : Buf (Elt Ideal) ((c : Thread nD τ).loc main_v4_1) :=
  Cert.ReferenceIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))

/-- After `n` points the scratch holds, at row ρ of tile i1 when that row is inside the array and the tile has been
    visited cnt = ⌈(n − i1)/5⌉ > 0 times, the first cnt blocks of that row's first-layer products, added in order. -/
def GoodAcc (c : Dev nD) (n : ℕ) (acc : Vec Ideal S5120x1024 .f32) : Prop :=
  ∀ (i1 : Fin 5) (ρ' j : Fin 1024) (hr : 1024 * i1.val + ρ'.val < 5000), 0 < (n + 4 - i1.val) / 5 →
    acc (ix2 (⟨1024 * i1.val + ρ'.val, by omega⟩ : Fin 5120) j)
      = Cert.Mid.acc (xrow m c ⟨1024 * i1.val + ρ'.val, hr⟩) (wcol m c j) ((n + 4 - i1.val) / 5 - 1)

/-- The scratch operand as a memref. -/
abbrev scM : Memref sig .tc .vmem S5120x1024 .f32 := Memref.whole cc0_scratch0

/-- The region invariant before position n: the scratch at some contents with `GoodAcc`, the generator register at some state. -/
def PhiS (c : Dev nD) (n : ℕ) : sProp 𝕄 :=
  iprop((∃ acc : Vec Ideal S5120x1024 .f32, ⌜GoodAcc m c n acc⌝ ∗ owns (c : Thread nD τ) scM fullShare acc) ∗ (∃ r, prngReg c r))

/-- The proof data of the one pipeline on core c. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => win0_9.fill (grid0.coords t) (fun _ => (0 : EReal)) ((win0_9.blk t).view.read (Elt Ideal) (refScore m c))
    | ⟨10, _⟩ => win0_10.fill (grid0.coords t) (fun _ => (0 : EReal)) ((win0_10.blk t).view.read (Elt Ideal) (refBbox m c))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = win0_0.fill (grid0.coords t) (fun _ => (0 : EReal)) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = win0_9.fill (grid0.coords t) (fun _ => (0 : EReal)) ((win0_9.blk t).view.read (Elt Ideal) (refScore m c)) := by dsimp only [dats]
theorem after0_10 (c : Dev nD) (t : Fin cfg0.N) : (dats m 0 c).after 10 t
    = win0_10.fill (grid0.coords t) (fun _ => (0 : EReal)) ((win0_10.blk t).view.read (Elt Ideal) (refBbox m c)) := by dsimp only [dats]

/-! ## The grid: seventy points, the outer coordinate k = t / 5, the inner i1 = t % 5 -/

theorem N70 : cfg0.N = 70 := N_0

theorem coords0 : ∀ t : Fin cfg0.N, (grid0.coords t 0).val = t.val / 5 :=
  (by decide +kernel : ∀ t : Fin grid0.N, (grid0.coords t 0).val = t.val / 5)
theorem coords1 : ∀ t : Fin cfg0.N, (grid0.coords t 1).val = t.val % 5 :=
  (by decide +kernel : ∀ t : Fin grid0.N, (grid0.coords t 1).val = t.val % 5)

/-- The body's three conditions in closed form: k = 0, k > 0, k = 13. -/
theorem hcond1 : ∀ t : Fin cfg0.N, k0_cond1 (grid0.coords t) = 1#1 ↔ t.val < 5 :=
  (by decide +kernel : ∀ t : Fin grid0.N, k0_cond1 (grid0.coords t) = 1#1 ↔ t.val < 5)
theorem hcond2 : ∀ t : Fin cfg0.N, k0_cond2 (grid0.coords t) = 1#1 ↔ 5 ≤ t.val :=
  (by decide +kernel : ∀ t : Fin grid0.N, k0_cond2 (grid0.coords t) = 1#1 ↔ 5 ≤ t.val)
theorem hcond3 : ∀ t : Fin cfg0.N, k0_cond3 (grid0.coords t) = 1#1 ↔ 65 ≤ t.val :=
  (by decide +kernel : ∀ t : Fin grid0.N, k0_cond3 (grid0.coords t) = 1#1 ↔ 65 ≤ t.val)

end Cert.KernelIdeal.Hand

end
-- ==== Proof.KI.Good.lean ====
/-
  The invariant on the scratch, step by step. A point t = 5·k + i1 touches tile i1 only. Its rows inside the array
  go from the first k blocks of the row's first-layer products (nothing, at k = 0) to the first k + 1: the step stores
  (k = 0) or adds (k > 0) block k, which is the product of the row's entries 896·k … 896·k + 895 with the matching
  rows of the first weight matrix. Every other tile keeps its rows, and its count of visits. At the last outer step
  (k = 13) the tile's rows inside the array therefore hold the whole contraction over the 12544 input features.
-/
import proofs.«162220_g47519518163636_cont_8to1_c_297_4_alg».proof.Proof.KI.Defs

noncomputable section

namespace Cert.KernelIdeal.Hand

open Cert.KernelIdeal Cert.KernelIdeal.Gen
open Idealize.ShloMosaic Idealize.ShloMosaic.ValueIdx

variable (m : (ℓ : Loc nD τ sig) → Buf (Elt Ideal) ℓ)

/-- The product a point t = 5·k + i1 forms for a row of its tile inside the array is block k of that row's
    first-layer products. -/
private theorem blk_of (c : Dev nD) (t : Fin cfg0.N) (hN : t.val < 70)
    (x0 : Vec Ideal S1024x896 .f32) (x1 : Vec Ideal S896x1024 .f32)
    (hx0 : ∀ (ρ' : Fin 1024) (l : Fin 896) (hr : 1024 * (t.val % 5) + ρ'.val < 5000),
      x0 (ix2 ρ' l) = xrow m c ⟨1024 * (t.val % 5) + ρ'.val, hr⟩ ⟨896 * (t.val / 5) + l.val, by have := l.isLt; omega⟩)
    (hx1 : ∀ (l : Fin 896) (j : Fin 1024), x1 (ix2 l j) = wcol m c j ⟨896 * (t.val / 5) + l.val, by have := l.isLt; omega⟩)
    (ρ' j : Fin 1024) (hr : 1024 * (t.val % 5) + ρ'.val < 5000) :
    ∑ l : Fin 896, x0 (ix2 ρ' l) * x1 (ix2 l j)
      = Cert.Mid.blk (xrow m c ⟨1024 * (t.val % 5) + ρ'.val, hr⟩) (wcol m c j) (t.val / 5) := by
  rw [Cert.Mid.blk_eq _ _ (t.val / 5) (by omega)]
  refine Finset.sum_congr rfl fun l _ => ?_
  rw [hx0 ρ' l hr, hx1 l j]

/-- A tile other than the point's own keeps its rows, and its count of visits: (t + 5 − i1)/5 = (t + 4 − i1)/5 when
    i1 is not t mod 5. -/
private theorem good_other (c : Dev nD) (t : Fin cfg0.N) (acc : Vec Ideal S5120x1024 .f32) (P : Vec Ideal S1024x1024 .f32)
    (hg : GoodAcc m c t.val acc) (i1 : Fin 5) (ρ' j : Fin 1024) (hr : 1024 * i1.val + ρ'.val < 5000)
    (hpos : 0 < (t.val + 1 + 4 - i1.val) / 5) (h : ¬i1.val = t.val % 5) :
    putTile (grid0.coords t) acc P (ix2 (⟨1024 * i1.val + ρ'.val, by omega⟩ : Fin 5120) j)
      = Cert.Mid.acc (xrow m c ⟨1024 * i1.val + ρ'.val, hr⟩) (wcol m c j) ((t.val + 1 + 4 - i1.val) / 5 - 1) := by
  have hc := coords1 t
  have hcnt : (t.val + 1 + 4 - i1.val) / 5 = (t.val + 4 - i1.val) / 5 := by have := i1.isLt; omega
  rw [putTile_of_not_mem _ _ _ _ (by
    show ¬(1024 * (grid0.coords t 1).val ≤ 1024 * i1.val + ρ'.val ∧ 1024 * i1.val + ρ'.val < 1024 * (grid0.coords t 1).val + 1024)
    have := ρ'.isLt; have := i1.isLt; omega), hcnt]
  exact hg i1 ρ' j hr (by omega)

/-- Before the first point no tile has been visited: the invariant asks nothing. -/
theorem good_zero (c : Dev nD) (acc : Vec Ideal S5120x1024 .f32) : GoodAcc m c 0 acc := by
  intro i1 ρ' j hr hpos
  exfalso
  have := i1.isLt
  omega

/-- A point of the first outer step (k = 0) stores block 0 into its tile. -/
theorem good_stepA (c : Dev nD) (t : Fin cfg0.N) (hN : t.val < 70) (ht : t.val < 5)
    (x0 : Vec Ideal S1024x896 .f32) (x1 : Vec Ideal S896x1024 .f32) (acc : Vec Ideal S5120x1024 .f32)
    (hx0 : ∀ (ρ' : Fin 1024) (l : Fin 896) (hr : 1024 * (t.val % 5) + ρ'.val < 5000),
      x0 (ix2 ρ' l) = xrow m c ⟨1024 * (t.val % 5) + ρ'.val, hr⟩ ⟨896 * (t.val / 5) + l.val, by have := l.isLt; omega⟩)
    (hx1 : ∀ (l : Fin 896) (j : Fin 1024), x1 (ix2 l j) = wcol m c j ⟨896 * (t.val / 5) + l.val, by have := l.isLt; omega⟩)
    (hg : GoodAcc m c t.val acc) :
    GoodAcc m c (t.val + 1) (putTile (grid0.coords t) acc (k0_pay2 x0 x1)) := by
  intro i1 ρ' j hr hpos
  by_cases h : i1.val = t.val % 5
  · have h' : (grid0.coords t 1).val = i1.val := (coords1 t).trans h.symm
    have hr' : 1024 * (t.val % 5) + ρ'.val < 5000 := by omega
    have e : (⟨1024 * i1.val + ρ'.val, by omega⟩ : Fin 5120) = ⟨1024 * (grid0.coords t 1).val + ρ'.val, by omega⟩ :=
      Fin.ext (show 1024 * i1.val + ρ'.val = 1024 * (grid0.coords t 1).val + ρ'.val by rw [h'])
    have er : (⟨1024 * i1.val + ρ'.val, hr⟩ : Fin 5000) = ⟨1024 * (t.val % 5) + ρ'.val, hr'⟩ :=
      Fin.ext (show 1024 * i1.val + ρ'.val = 1024 * (t.val % 5) + ρ'.val by rw [h])
    have hk : (t.val + 1 + 4 - i1.val) / 5 - 1 = 0 := by omega
    have hk0 : t.val / 5 = 0 := by omega
    rw [e, putTile_of_mem, KPay.pay2_apply, er, hk, Cert.Mid.acc_zero, blk_of m c t hN x0 x1 hx0 hx1 ρ' j hr', hk0]
  · exact good_other m c t acc _ hg i1 ρ' j hr hpos h

/-- A point of a later outer step (k > 0) adds block k to what its tile held. -/
theorem good_stepB (c : Dev nD) (t : Fin cfg0.N) (hN : t.val < 70) (ht : 5 ≤ t.val)
    (x0 : Vec Ideal S1024x896 .f32) (x1 : Vec Ideal S896x1024 .f32) (acc : Vec Ideal S5120x1024 .f32)
    (hx0 : ∀ (ρ' : Fin 1024) (l : Fin 896) (hr : 1024 * (t.val % 5) + ρ'.val < 5000),
      x0 (ix2 ρ' l) = xrow m c ⟨1024 * (t.val % 5) + ρ'.val, hr⟩ ⟨896 * (t.val / 5) + l.val, by have := l.isLt; omega⟩)
    (hx1 : ∀ (l : Fin 896) (j : Fin 1024), x1 (ix2 l j) = wcol m c j ⟨896 * (t.val / 5) + l.val, by have := l.isLt; omega⟩)
    (hg : GoodAcc m c t.val acc) :
    GoodAcc m c (t.val + 1) (putTile (grid0.coords t) acc (k0_pay3 x0 x1 (tile (grid0.coords t) acc))) := by
  intro i1 ρ' j hr hpos
  by_cases h : i1.val = t.val % 5
  · have h' : (grid0.coords t 1).val = i1.val := (coords1 t).trans h.symm
    have hr' : 1024 * (t.val % 5) + ρ'.val < 5000 := by omega
    have e : (⟨1024 * i1.val + ρ'.val, by omega⟩ : Fin 5120) = ⟨1024 * (grid0.coords t 1).val + ρ'.val, by omega⟩ :=
      Fin.ext (show 1024 * i1.val + ρ'.val = 1024 * (grid0.coords t 1).val + ρ'.val by rw [h'])
    have er : (⟨1024 * i1.val + ρ'.val, hr⟩ : Fin 5000) = ⟨1024 * (t.val % 5) + ρ'.val, hr'⟩ :=
      Fin.ext (show 1024 * i1.val + ρ'.val = 1024 * (t.val % 5) + ρ'.val by rw [h])
    have hk1 : (t.val + 4 - i1.val) / 5 - 1 = t.val / 5 - 1 := by omega
    have hk2 : (t.val + 1 + 4 - i1.val) / 5 - 1 = t.val / 5 - 1 + 1 := by omega
    have hk3 : t.val / 5 - 1 + 1 = t.val / 5 := by omega
    rw [e, putTile_of_mem, KPay.pay3_apply, tile_apply, ← e, hg i1 ρ' j hr (by omega), hk1, hk2, Cert.Mid.acc_succ, er,
      blk_of m c t hN x0 x1 hx0 hx1 ρ' j hr', hk3]
  · exact good_other m c t acc _ hg i1 ρ' j hr hpos h

/-- At a point of the last outer step (k = 13) what the step has just added up in its tile is, on a row inside the
    array, the whole contraction. -/
theorem last_rows (c : Dev nD) (t : Fin cfg0.N) (hN : t.val < 70) (ht : 65 ≤ t.val)
    (x0 : Vec Ideal S1024x896 .f32) (x1 : Vec Ideal S896x1024 .f32) (acc : Vec Ideal S5120x1024 .f32)
    (hx0 : ∀ (ρ' : Fin 1024) (l : Fin 896) (hr : 1024 * (t.val % 5) + ρ'.val < 5000),
      x0 (ix2 ρ' l) = xrow m c ⟨1024 * (t.val % 5) + ρ'.val, hr⟩ ⟨896 * (t.val / 5) + l.val, by have := l.isLt; omega⟩)
    (hx1 : ∀ (l : Fin 896) (j : Fin 1024), x1 (ix2 l j) = wcol m c j ⟨896 * (t.val / 5) + l.val, by have := l.isLt; omega⟩)
    (hg : GoodAcc m c t.val acc) (ρ' j : Fin 1024) (hr : 1024 * (t.val % 5) + ρ'.val < 5000) :
    k0_pay3 x0 x1 (tile (grid0.coords t) acc) (ix2 ρ' j)
      = ∑ n : Fin 12544, xrow m c ⟨1024 * (t.val % 5) + ρ'.val, hr⟩ n * wcol m c j n := by
  have hc := coords1 t
  have e : (⟨1024 * (grid0.coords t 1).val + ρ'.val, by omega⟩ : Fin 5120) = ⟨1024 * (t.val % 5) + ρ'.val, by omega⟩ :=
    Fin.ext (show 1024 * (grid0.coords t 1).val + ρ'.val = 1024 * (t.val % 5) + ρ'.val by rw [hc])
  have hg' : acc (ix2 (⟨1024 * (t.val % 5) + ρ'.val, by omega⟩ : Fin 5120) j)
      = Cert.Mid.acc (xrow m c ⟨1024 * (t.val % 5) + ρ'.val, hr⟩) (wcol m c j) ((t.val + 4 - t.val % 5) / 5 - 1) :=
    hg ⟨t.val % 5, Nat.mod_lt _ (by decide)⟩ ρ' j hr (show 0 < (t.val + 4 - t.val % 5) / 5 by omega)
  have hk : (t.val + 4 - t.val % 5) / 5 - 1 = 12 := by omega
  have hk13 : t.val / 5 = 12 + 1 := by omega
  rw [KPay.pay3_apply, tile_apply, e, hg', hk, blk_of m c t hN x0 x1 hx0 hx1 ρ' j hr, hk13, ← Cert.Mid.acc_succ]
  exact Cert.Mid.acc_last _ _

end Cert.KernelIdeal.Hand

end
-- ==== Proof.KI.Blocks.lean ====
/-
  The windows' blocks read at an index. Point t = 5·k + i1 stages rows 1024·i1 … of the input against columns
  896·k … (the last row block overhangs the 5000 rows: only its rows inside the array are the array's), rows
  896·k … of the first weight matrix, and the whole of every other weight.
-/
import proofs.«162220_g47519518163636_cont_8to1_c_297_4_alg».proof.Proof.KI.Defs
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-! ## The index maps and the cuts, decided over the seventy points -/

/-- Window 0: row block t % 5, column block t / 5; the rows moved are those inside the 5000, every column is. -/
private theorem idx0 : ∀ t : Fin cfg0.N, win0_0.index t (0 : Fin 2) = t.val % 5 ∧ win0_0.index t (1 : Fin 2) = t.val / 5
    ∧ win0_0.xsize (grid0.coords t) (0 : Fin 2) = min 1024 (5000 - 1024 * (t.val % 5))
    ∧ win0_0.xsize (grid0.coords t) (1 : Fin 2) = 896 :=
  (by decide +kernel : ∀ t : Fin grid0.N, _)

/-- Window 1: row block t / 5, the one column block. -/
private theorem idx1 : ∀ t : Fin cfg0.N, win0_1.index t (0 : Fin 2) = t.val / 5 ∧ win0_1.index t (1 : Fin 2) = 0 :=
  (by decide +kernel : ∀ t : Fin grid0.N, _)

/-- Windows 3, 5 and 7 stay at block (0, 0). -/
private theorem idx3 : ∀ t : Fin cfg0.N, win0_3.index t (0 : Fin 2) = 0 ∧ win0_3.index t (1 : Fin 2) = 0 :=
  (by decide +kernel : ∀ t : Fin grid0.N, _)
private theorem idx5 : ∀ t : Fin cfg0.N, win0_5.index t (0 : Fin 2) = 0 ∧ win0_5.index t (1 : Fin 2) = 0 :=
  (by decide +kernel : ∀ t : Fin grid0.N, _)
private theorem idx7 : ∀ t : Fin cfg0.N, win0_7.index t (0 : Fin 2) = 0 ∧ win0_7.index t (1 : Fin 2) = 0 :=
  (by decide +kernel : ∀ t : Fin grid0.N, _)

/-- A filled block read at an index the transfer moves reads the part moved there. -/
private theorem fill_of_moved {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; rw [dif_pos h]

/-- The input's staged block, whatever fills the rows past the array's end, on a row inside the array. -/
theorem x0_apply (c : Dev nD) (t : Fin cfg0.N) (hN : t.val < 70) (d : Vec Ideal S1024x896 .f32) (ρ' : Fin 1024) (l : Fin 896)
    (hr : 1024 * (t.val % 5) + ρ'.val < 5000) :
    (win0_0.fill (grid0.coords t) d (iblk m c 0 t) : Vec Ideal S1024x896 .f32) (ix2 ρ' l)
      = xrow m c ⟨1024 * (t.val % 5) + ρ'.val, hr⟩ ⟨896 * (t.val / 5) + l.val, by have := l.isLt; omega⟩ := by
  obtain ⟨e0, e1, s0, s1⟩ := idx0 t
  have hρ : ρ'.val < 1024 := ρ'.isLt
  have hl : l.val < 896 := l.isLt
  have hmv : win0_0.moved (grid0.coords t) (ix2 ρ' l) = true := by
    rw [Window.moved_iff]
    intro a
    match a with
    | ⟨0, _⟩ => show ρ'.val < win0_0.xsize (grid0.coords t) (0 : Fin 2); rw [s0]; omega
    | ⟨1, _⟩ => show l.val < win0_0.xsize (grid0.coords t) (1 : Fin 2); rw [s1]; exact hl
  refine (fill_of_moved win0_0 (grid0.coords t) d (iblk m c 0 t) (ix2 ρ' l) hmv).trans ?_
  unfold xrow
  rw [← V_main_arg0 m c]
  show V m c main_arg0 (((cfg0.win 0).blk t).view.emb _) = V m c main_arg0 _
  refine congrArg (V m c main_arg0) ?_
  funext a; apply Fin.ext
  match a with
  | ⟨0, _⟩ => show win0_0.index t (0 : Fin 2) * 1024 + 1 * ρ'.val = 1024 * (t.val % 5) + ρ'.val; omega
  | ⟨1, _⟩ => show win0_0.index t (1 : Fin 2) * 896 + 1 * l.val = 896 * (t.val / 5) + l.val; omega

/-- The first weight matrix's block. -/
theorem x1_apply (c : Dev nD) (t : Fin cfg0.N) (hN : t.val < 70) (l : Fin 896) (j : Fin 1024) :
    (iblk m c 1 t : Vec Ideal S896x1024 .f32) (ix2 l j) = wcol m c j ⟨896 * (t.val / 5) + l.val, by have := l.isLt; omega⟩ := by
  obtain ⟨e0, e1⟩ := idx1 t
  unfold wcol
  rw [← V_main_arg1 m c]
  show V m c main_arg1 (((cfg0.win 1).blk t).view.emb (ix2 l j)) = V m c main_arg1 _
  refine congrArg (V m c main_arg1) ?_
  funext a; apply Fin.ext
  match a with
  | ⟨0, _⟩ => show win0_1.index t (0 : Fin 2) * 896 + 1 * l.val = 896 * (t.val / 5) + l.val; omega
  | ⟨1, _⟩ => show win0_1.index t (1 : Fin 2) * 1024 + 1 * j.val = j.val; omega

/-- The other weights, each staged whole. -/
theorem w2_apply (c : Dev nD) (t : Fin cfg0.N) (j l : Fin 1024) :
    (iblk m c 3 t : Vec Ideal S1024x1024 .f32) (ix2 j l) = (m ((c : Thread nD τ).loc main_arg3)) (ix2 j l) := by
  obtain ⟨e0, e1⟩ := idx3 t
  rw [← V_main_arg3 m c]
  show V m c main_arg3 (((cfg0.win 3).blk t).view.emb (ix2 j l)) = V m c main_arg3 _
  refine congrArg (V m c main_arg3) ?_
  funext a; apply Fin.ext
  match a with
  | ⟨0, _⟩ => show win0_3.index t (0 : Fin 2) * 1024 + 1 * j.val = j.val; omega
  | ⟨1, _⟩ => show win0_3.index t (1 : Fin 2) * 1024 + 1 * l.val = l.val; omega
theorem wc_apply (c : Dev nD) (t : Fin cfg0.N) (l : Fin 1024) (c' : Fin 91) :
    (iblk m c 5 t : Vec Ideal S1024x91 .f32) (ix2 l c') = (m ((c : Thread nD τ).loc main_arg5)) (ix2 l c') := by
  obtain ⟨e0, e1⟩ := idx5 t
  rw [← V_main_arg5 m c]
  show V m c main_arg5 (((cfg0.win 5).blk t).view.emb (ix2 l c')) = V m c main_arg5 _
  refine congrArg (V m c main_arg5) ?_
  funext a; apply Fin.ext
  match a with
  | ⟨0, _⟩ => show win0_5.index t (0 : Fin 2) * 1024 + 1 * l.val = l.val; omega
  | ⟨1, _⟩ => show win0_5.index t (1 : Fin 2) * 91 + 1 * c'.val = c'.val; omega
theorem wb_apply (c : Dev nD) (t : Fin cfg0.N) (l : Fin 1024) (c' : Fin 364) :
    (iblk m c 7 t : Vec Ideal S1024x364 .f32) (ix2 l c') = (m ((c : Thread nD τ).loc main_arg7)) (ix2 l c') := by
  obtain ⟨e0, e1⟩ := idx7 t
  rw [← V_main_arg7 m c]
  show V m c main_arg7 (((cfg0.win 7).blk t).view.emb (ix2 l c')) = V m c main_arg7 _
  refine congrArg (V m c main_arg7) ?_
  funext a; apply Fin.ext
  match a with
  | ⟨0, _⟩ => show win0_7.index t (0 : Fin 2) * 1024 + 1 * l.val = l.val; omega
  | ⟨1, _⟩ => show win0_7.index t (1 : Fin 2) * 364 + 1 * c'.val = c'.val; omega

end Cert.KernelIdeal.Hand

end
-- ==== Proof.KI.Cover.lean ====
/-
  The outputs' blocks. They are written back only at the five points of the last outer step, where block i1 of an
  output sits at rows 1024·i1 …, cut at the array's 5000 rows like the input's. A stored block that agrees with an
  array on the rows inside it IS that array's block filled out with the stored block's own tail; and those five
  blocks cover each output array.
-/
import proofs.«162220_g47519518163636_cont_8to1_c_297_4_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- The output windows at the last outer step: row block t % 5, cut like the input's. -/
private theorem idx9 : ∀ t : Fin cfg0.N, 65 ≤ t.val → win0_9.index t (0 : Fin 2) = t.val % 5 ∧ win0_9.index t (1 : Fin 2) = 0
    ∧ win0_9.xsize (grid0.coords t) (0 : Fin 2) = min 1024 (5000 - 1024 * (t.val % 5))
    ∧ win0_9.xsize (grid0.coords t) (1 : Fin 2) = 91 :=
  (by decide +kernel : ∀ t : Fin grid0.N, _)
private theorem idx10 : ∀ t : Fin cfg0.N, 65 ≤ t.val → win0_10.index t (0 : Fin 2) = t.val % 5 ∧ win0_10.index t (1 : Fin 2) = 0
    ∧ win0_10.xsize (grid0.coords t) (0 : Fin 2) = min 1024 (5000 - 1024 * (t.val % 5))
    ∧ win0_10.xsize (grid0.coords t) (1 : Fin 2) = 364 :=
  (by decide +kernel : ∀ t : Fin grid0.N, _)

/-- A filled block read at an index the transfer moves reads the part moved there. -/
private theorem fill_of_moved {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; rw [dif_pos h]

/-- At a point of the last outer step: a stored block that agrees with `G` on the rows inside the array is `G`'s block
    there filled out with its own tail. -/
theorem fill9_eq (c : Dev nD) (t : Fin cfg0.N) (hN : t.val < 70) (ht : 65 ≤ t.val) (P : Vec Ideal S1024x91 .f32)
    (G : Buf (Elt Ideal) ((c : Thread nD τ).loc main_v4_0))
    (h : ∀ (ρ' : Fin 1024) (c' : Fin 91) (hr : 1024 * (t.val % 5) + ρ'.val < 5000),
      P (ix2 ρ' c') = G (ix2 (⟨1024 * (t.val % 5) + ρ'.val, hr⟩ : Fin 5000) c')) :
    win0_9.fill (grid0.coords t) P ((win0_9.blk t).view.read (Elt Ideal) G) = P := by
  obtain ⟨e0, e1, s0, s1⟩ := idx9 t ht
  funext y
  obtain ⟨ρ', c', rfl⟩ : ∃ (ρ' : Fin 1024) (c' : Fin 91), y = ix2 ρ' c' := ⟨y 0, y 1, eq_ix2 y⟩
  by_cases hmv : win0_9.moved (grid0.coords t) (ix2 ρ' c') = true
  · refine (fill_of_moved win0_9 (grid0.coords t) P _ (ix2 ρ' c') hmv).trans ?_
    have h0 : ρ'.val < win0_9.xsize (grid0.coords t) (0 : Fin 2) := (win0_9.moved_iff _ _).mp hmv 0
    rw [s0] at h0
    have hr : 1024 * (t.val % 5) + ρ'.val < 5000 := by omega
    rw [h ρ' c' hr]
    show G ((win0_9.blk t).view.emb _) = G _
    refine congrArg G ?_
    funext a; apply Fin.ext
    match a with
    | ⟨0, _⟩ => show win0_9.index t (0 : Fin 2) * 1024 + 1 * ρ'.val = 1024 * (t.val % 5) + ρ'.val; omega
    | ⟨1, _⟩ => show win0_9.index t (1 : Fin 2) * 91 + 1 * c'.val = c'.val; omega
  · exact Window.fill_of_not_moved _ _ _ _ hmv
theorem fill10_eq (c : Dev nD) (t : Fin cfg0.N) (hN : t.val < 70) (ht : 65 ≤ t.val) (P : Vec Ideal S1024x364 .f32)
    (G : Buf (Elt Ideal) ((c : Thread nD τ).loc main_v4_1))
    (h : ∀ (ρ' : Fin 1024) (c' : Fin 364) (hr : 1024 * (t.val % 5) + ρ'.val < 5000),
      P (ix2 ρ' c') = G (ix2 (⟨1024 * (t.val % 5) + ρ'.val, hr⟩ : Fin 5000) c')) :
    win0_10.fill (grid0.coords t) P ((win0_10.blk t).view.read (Elt Ideal) G) = P := by
  obtain ⟨e0, e1, s0, s1⟩ := idx10 t ht
  funext y
  obtain ⟨ρ', c', rfl⟩ : ∃ (ρ' : Fin 1024) (c' : Fin 364), y = ix2 ρ' c' := ⟨y 0, y 1, eq_ix2 y⟩
  by_cases hmv : win0_10.moved (grid0.coords t) (ix2 ρ' c') = true
  · refine (fill_of_moved win0_10 (grid0.coords t) P _ (ix2 ρ' c') hmv).trans ?_
    have h0 : ρ'.val < win0_10.xsize (grid0.coords t) (0 : Fin 2) := (win0_10.moved_iff _ _).mp hmv 0
    rw [s0] at h0
    have hr : 1024 * (t.val % 5) + ρ'.val < 5000 := by omega
    rw [h ρ' c' hr]
    show G ((win0_10.blk t).view.emb _) = G _
    refine congrArg G ?_
    funext a; apply Fin.ext
    match a with
    | ⟨0, _⟩ => show win0_10.index t (0 : Fin 2) * 1024 + 1 * ρ'.val = 1024 * (t.val % 5) + ρ'.val; omega
    | ⟨1, _⟩ => show win0_10.index t (1 : Fin 2) * 364 + 1 * c'.val = c'.val; omega
  · exact Window.fill_of_not_moved _ _ _ _ hmv

/-- The outputs are written back exactly at the last outer step, -/
theorem flush9_iff : ∀ t : Fin cfg0.N, (cfg0.win 9).flush t = true ↔ 65 ≤ t.val :=
  (by decide +kernel : ∀ t : Fin grid0.N, (cfg0.win 9).flush t = true ↔ 65 ≤ t.val)
theorem flush10_iff : ∀ t : Fin cfg0.N, (cfg0.win 10).flush t = true ↔ 65 ≤ t.val :=
  (by decide +kernel : ∀ t : Fin grid0.N, (cfg0.win 10).flush t = true ↔ 65 ≤ t.val)

/-- and those five blocks cover each output array. -/
theorem cover9 (c : Dev nD) : ∀ i : ((cfg0.win 9).arr.view.loc (c.tc : Thread nD τ)).2.ty.Idx,
    ∃ t : Fin cfg0.N, (cfg0.win 9).flush t = true ∧ i ∈ ((cfg0.win 9).blk t).view.set := by
  intro (i : S5000x91.Idx)
  have hi0 : (i 0).val < 5000 := (i 0).isLt
  have hi1 : (i 1).val < 91 := (i 1).isLt
  -- row r lies in the block of the point 65 + r / 1024
  have hN : 65 + (i 0).val / 1024 < cfg0.N := by rw [N70]; omega
  obtain ⟨e0, e1, s0, s1⟩ := idx9 ⟨65 + (i 0).val / 1024, hN⟩ (Nat.le_add_right _ _)
  refine ⟨⟨65 + (i 0).val / 1024, hN⟩, (flush9_iff _).mpr (Nat.le_add_right _ _), ?_⟩
  show i ∈ ((View.whole main_v4_0).slice (win0_9.rect ⟨65 + (i 0).val / 1024, hN⟩)).set
  rw [View.set_slice_whole, Rect.mem_set_unit]
  intro a
  match a with
  | ⟨0, _⟩ =>
    show win0_9.index ⟨65 + (i 0).val / 1024, hN⟩ (0 : Fin 2) * 1024 ≤ (i 0).val
      ∧ (i 0).val < win0_9.index ⟨65 + (i 0).val / 1024, hN⟩ (0 : Fin 2) * 1024 + win0_9.xsize (grid0.coords ⟨65 + (i 0).val / 1024, hN⟩) (0 : Fin 2)
    rw [e0, s0]
    show (65 + (i 0).val / 1024) % 5 * 1024 ≤ (i 0).val
      ∧ (i 0).val < (65 + (i 0).val / 1024) % 5 * 1024 + min 1024 (5000 - 1024 * ((65 + (i 0).val / 1024) % 5))
    omega
  | ⟨1, _⟩ =>
    show win0_9.index ⟨65 + (i 0).val / 1024, hN⟩ (1 : Fin 2) * 91 ≤ (i 1).val
      ∧ (i 1).val < win0_9.index ⟨65 + (i 0).val / 1024, hN⟩ (1 : Fin 2) * 91 + win0_9.xsize (grid0.coords ⟨65 + (i 0).val / 1024, hN⟩) (1 : Fin 2)
    rw [e1, s1]
    omega
theorem cover10 (c : Dev nD) : ∀ i : ((cfg0.win 10).arr.view.loc (c.tc : Thread nD τ)).2.ty.Idx,
    ∃ t : Fin cfg0.N, (cfg0.win 10).flush t = true ∧ i ∈ ((cfg0.win 10).blk t).view.set := by
  intro (i : S5000x364.Idx)
  have hi0 : (i 0).val < 5000 := (i 0).isLt
  have hi1 : (i 1).val < 364 := (i 1).isLt
  -- row r lies in the block of the point 65 + r / 1024
  have hN : 65 + (i 0).val / 1024 < cfg0.N := by rw [N70]; omega
  obtain ⟨e0, e1, s0, s1⟩ := idx10 ⟨65 + (i 0).val / 1024, hN⟩ (Nat.le_add_right _ _)
  refine ⟨⟨65 + (i 0).val / 1024, hN⟩, (flush10_iff _).mpr (Nat.le_add_right _ _), ?_⟩
  show i ∈ ((View.whole main_v4_1).slice (win0_10.rect ⟨65 + (i 0).val / 1024, hN⟩)).set
  rw [View.set_slice_whole, Rect.mem_set_unit]
  intro a
  match a with
  | ⟨0, _⟩ =>
    show win0_10.index ⟨65 + (i 0).val / 1024, hN⟩ (0 : Fin 2) * 1024 ≤ (i 0).val
      ∧ (i 0).val < win0_10.index ⟨65 + (i 0).val / 1024, hN⟩ (0 : Fin 2) * 1024 + win0_10.xsize (grid0.coords ⟨65 + (i 0).val / 1024, hN⟩) (0 : Fin 2)
    rw [e0, s0]
    show (65 + (i 0).val / 1024) % 5 * 1024 ≤ (i 0).val
      ∧ (i 0).val < (65 + (i 0).val / 1024) % 5 * 1024 + min 1024 (5000 - 1024 * ((65 + (i 0).val / 1024) % 5))
    omega
  | ⟨1, _⟩ =>
    show win0_10.index ⟨65 + (i 0).val / 1024, hN⟩ (1 : Fin 2) * 364 ≤ (i 1).val
      ∧ (i 1).val < win0_10.index ⟨65 + (i 0).val / 1024, hN⟩ (1 : Fin 2) * 364 + win0_10.xsize (grid0.coords ⟨65 + (i 0).val / 1024, hN⟩) (1 : Fin 2)
    rw [e1, s1]
    omega

end Cert.KernelIdeal.Hand

end
-- ==== Proof.KI.Bias.lean ====
/-
  The biases as the kernel sees them. @main reshapes each bias vector to a one-row matrix before the region, and the
  region stages that row whole at every point: entry (0, j) of the staged block is entry j of the bias.
-/
import proofs.«162220_g47519518163636_cont_8to1_c_297_4_alg».proof.Proof.KI.Defs
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- Windows 2, 4, 6, 8 stay at block (0, 0). -/
private theorem idx2 : ∀ t : Fin cfg0.N, win0_2.index t (0 : Fin 2) = 0 ∧ win0_2.index t (1 : Fin 2) = 0 :=
  (by decide +kernel : ∀ t : Fin grid0.N, _)
private theorem idx4 : ∀ t : Fin cfg0.N, win0_4.index t (0 : Fin 2) = 0 ∧ win0_4.index t (1 : Fin 2) = 0 :=
  (by decide +kernel : ∀ t : Fin grid0.N, _)
private theorem idx6 : ∀ t : Fin cfg0.N, win0_6.index t (0 : Fin 2) = 0 ∧ win0_6.index t (1 : Fin 2) = 0 :=
  (by decide +kernel : ∀ t : Fin grid0.N, _)
private theorem idx8 : ∀ t : Fin cfg0.N, win0_8.index t (0 : Fin 2) = 0 ∧ win0_8.index t (1 : Fin 2) = 0 :=
  (by decide +kernel : ∀ t : Fin grid0.N, _)

theorem b1_apply (c : Dev nD) (t : Fin cfg0.N) (j : Fin 1024) :
    (iblk m c 2 t : Vec Ideal S1x1024 .f32) (ix2 (0 : Fin 1) j) = (m ((c : Thread nD τ).loc main_arg2)) (ix1 j) := by
  obtain ⟨e0, e1⟩ := idx2 t
  have e : (V m c main_v0 : S1x1024.Idx → EReal)
      = shapeCast S1x1024 (m ((c : Thread nD τ).loc main_arg2)) shapeCasts_S1024_S1x1024 := by
    dsimp only [V, hostOps0]; after_results; rfl
  have hy : ((cfg0.win 2).blk t).view.emb (ix2 (0 : Fin 1) j) = (ix2 (0 : Fin 1) j : S1x1024.Idx) := by
    funext a; apply Fin.ext
    match a with
    | ⟨0, _⟩ => show win0_2.index t (0 : Fin 2) * 1 + 1 * 0 = 0; omega
    | ⟨1, _⟩ => show win0_2.index t (1 : Fin 2) * 1024 + 1 * j.val = j.val; omega
  show (V m c main_v0 : S1x1024.Idx → EReal) (((cfg0.win 2).blk t).view.emb (ix2 (0 : Fin 1) j)) = _
  rw [hy, e, shapeCast_a_1a_apply]
theorem b2_apply (c : Dev nD) (t : Fin cfg0.N) (l : Fin 1024) :
    (iblk m c 4 t : Vec Ideal S1x1024 .f32) (ix2 (0 : Fin 1) l) = (m ((c : Thread nD τ).loc main_arg4)) (ix1 l) := by
  obtain ⟨e0, e1⟩ := idx4 t
  have e : (V m c main_v1 : S1x1024.Idx → EReal)
      = shapeCast S1x1024 (m ((c : Thread nD τ).loc main_arg4)) shapeCasts_S1024_S1x1024 := by
    dsimp only [V, hostOps0]; after_results; rfl
  have hy : ((cfg0.win 4).blk t).view.emb (ix2 (0 : Fin 1) l) = (ix2 (0 : Fin 1) l : S1x1024.Idx) := by
    funext a; apply Fin.ext
    match a with
    | ⟨0, _⟩ => show win0_4.index t (0 : Fin 2) * 1 + 1 * 0 = 0; omega
    | ⟨1, _⟩ => show win0_4.index t (1 : Fin 2) * 1024 + 1 * l.val = l.val; omega
  show (V m c main_v1 : S1x1024.Idx → EReal) (((cfg0.win 4).blk t).view.emb (ix2 (0 : Fin 1) l)) = _
  rw [hy, e, shapeCast_a_1a_apply]
theorem bc_apply (c : Dev nD) (t : Fin cfg0.N) (c' : Fin 91) :
    (iblk m c 6 t : Vec Ideal S1x91 .f32) (ix2 (0 : Fin 1) c') = (m ((c : Thread nD τ).loc main_arg6)) (ix1 c') := by
  obtain ⟨e0, e1⟩ := idx6 t
  have e : (V m c main_v2 : S1x91.Idx → EReal)
      = shapeCast S1x91 (m ((c : Thread nD τ).loc main_arg6)) shapeCasts_S91_S1x91 := by
    dsimp only [V, hostOps0]; after_results; rfl
  have hy : ((cfg0.win 6).blk t).view.emb (ix2 (0 : Fin 1) c') = (ix2 (0 : Fin 1) c' : S1x91.Idx) := by
    funext a; apply Fin.ext
    match a with
    | ⟨0, _⟩ => show win0_6.index t (0 : Fin 2) * 1 + 1 * 0 = 0; omega
    | ⟨1, _⟩ => show win0_6.index t (1 : Fin 2) * 91 + 1 * c'.val = c'.val; omega
  show (V m c main_v2 : S1x91.Idx → EReal) (((cfg0.win 6).blk t).view.emb (ix2 (0 : Fin 1) c')) = _
  rw [hy, e, shapeCast_a_1a_apply]
theorem bb_apply (c : Dev nD) (t : Fin cfg0.N) (c' : Fin 364) :
    (iblk m c 8 t : Vec Ideal S1x364 .f32) (ix2 (0 : Fin 1) c') = (m ((c : Thread nD τ).loc main_arg8)) (ix1 c') := by
  obtain ⟨e0, e1⟩ := idx8 t
  have e : (V m c main_v3 : S1x364.Idx → EReal)
      = shapeCast S1x364 (m ((c : Thread nD τ).loc main_arg8)) shapeCasts_S364_S1x364 := by
    dsimp only [V, hostOps0]; after_results; rfl
  have hy : ((cfg0.win 8).blk t).view.emb (ix2 (0 : Fin 1) c') = (ix2 (0 : Fin 1) c' : S1x364.Idx) := by
    funext a; apply Fin.ext
    match a with
    | ⟨0, _⟩ => show win0_8.index t (0 : Fin 2) * 1 + 1 * 0 = 0; omega
    | ⟨1, _⟩ => show win0_8.index t (1 : Fin 2) * 364 + 1 * c'.val = c'.val; omega
  show (V m c main_v3 : S1x364.Idx → EReal) (((cfg0.win 8).blk t).view.emb (ix2 (0 : Fin 1) c')) = _
  rw [hy, e, shapeCast_a_1a_apply]

end Cert.KernelIdeal.Hand

end
-- ==== Proof.KI.Out.lean ====
/-
  At a point of the last outer step the two stored output blocks agree, on every row inside the array, with the
  reference's results. Entry (ρ, c') of a stored block is the tail formula of row ρ of the tile just added up; on a
  row inside the array that tile row is the whole contraction over the 12544 input features, and the weights' and
  biases' blocks are the arrays themselves; the reference's result at the matching array row is the same tail formula
  of the same contraction. So the array's block there, filled out past the array's end with the stored block's own
  tail, is the stored block.
-/
import proofs.«162220_g47519518163636_cont_8to1_c_297_4_alg».proof.Proof.KI.Defs
import proofs.«162220_g47519518163636_cont_8to1_c_297_4_alg».proof.Proof.KI.Good
import proofs.«162220_g47519518163636_cont_8to1_c_297_4_alg».proof.Proof.KI.Blocks
import proofs.«162220_g47519518163636_cont_8to1_c_297_4_alg».proof.Proof.KI.Cover
import proofs.«162220_g47519518163636_cont_8to1_c_297_4_alg».proof.Proof.KI.Bias
import proofs.«162220_g47519518163636_cont_8to1_c_297_4_alg».proof.Proof.KPay
import proofs.«162220_g47519518163636_cont_8to1_c_297_4_alg».proof.Proof.RefSide

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The first output head. -/
theorem out9_eq (c : Dev nD) (t : Fin cfg0.N) (hN : t.val < 70) (ht : 65 ≤ t.val) (d0 : Vec Ideal S1024x896 .f32)
    (acc : Vec Ideal S5120x1024 .f32) (hg : GoodAcc m c t.val acc) :
    win0_9.fill (grid0.coords t)
      (k0_pay5 (k0_pay3 (win0_0.fill (grid0.coords t) d0 (iblk m c 0 t) : Vec Ideal S1024x896 .f32) (iblk m c 1 t : Vec Ideal S896x1024 .f32) (tile (grid0.coords t) acc))
        (iblk m c 2 t : Vec Ideal S1x1024 .f32) (iblk m c 3 t : Vec Ideal S1024x1024 .f32) (iblk m c 4 t : Vec Ideal S1x1024 .f32)
        (iblk m c 5 t : Vec Ideal S1024x91 .f32) (iblk m c 6 t : Vec Ideal S1x91 .f32))
      ((win0_9.blk t).view.read (Elt Ideal) (refScore m c))
    = (k0_pay5 (k0_pay3 (win0_0.fill (grid0.coords t) d0 (iblk m c 0 t) : Vec Ideal S1024x896 .f32) (iblk m c 1 t : Vec Ideal S896x1024 .f32) (tile (grid0.coords t) acc))
        (iblk m c 2 t : Vec Ideal S1x1024 .f32) (iblk m c 3 t : Vec Ideal S1024x1024 .f32) (iblk m c 4 t : Vec Ideal S1x1024 .f32)
        (iblk m c 5 t : Vec Ideal S1024x91 .f32) (iblk m c 6 t : Vec Ideal S1x91 .f32)) := by
  refine fill9_eq c t hN ht _ (refScore m c) (fun ρ' c' hr => ?_)
  rw [Cert.KernelIdeal.KPay.pay5_apply]
  unfold refScore
  rw [Cert.ReferenceIdeal.RefSide.score_apply]
  have e1 : (fun j : Fin 1024 => k0_pay3 (win0_0.fill (grid0.coords t) d0 (iblk m c 0 t) : Vec Ideal S1024x896 .f32)
        (iblk m c 1 t : Vec Ideal S896x1024 .f32) (tile (grid0.coords t) acc) (ix2 ρ' j))
      = fun j => ∑ n : Fin 12544, xrow m c ⟨1024 * (t.val % 5) + ρ'.val, hr⟩ n * wcol m c j n :=
    funext fun j => last_rows m c t hN ht _ _ acc (fun ρ'' l hr' => x0_apply m c t hN d0 ρ'' l hr')
      (fun l j' => x1_apply m c t hN l j') hg ρ' j hr
  have e2 : (fun j : Fin 1024 => (iblk m c 2 t : Vec Ideal S1x1024 .f32) (ix2 (0 : Fin 1) j))
      = fun j => (m ((c : Thread nD τ).loc main_arg2)) (ix1 j) := funext fun j => b1_apply m c t j
  have e3 : (fun j l : Fin 1024 => (iblk m c 3 t : Vec Ideal S1024x1024 .f32) (ix2 j l))
      = fun j l => (m ((c : Thread nD τ).loc main_arg3)) (ix2 j l) := funext fun j => funext fun l => w2_apply m c t j l
  have e4 : (fun l : Fin 1024 => (iblk m c 4 t : Vec Ideal S1x1024 .f32) (ix2 (0 : Fin 1) l))
      = fun l => (m ((c : Thread nD τ).loc main_arg4)) (ix1 l) := funext fun l => b2_apply m c t l
  have e5 : (fun (l : Fin 1024) (c'' : Fin 91) => (iblk m c 5 t : Vec Ideal S1024x91 .f32) (ix2 l c''))
      = fun l c'' => (m ((c : Thread nD τ).loc main_arg5)) (ix2 l c'') := funext fun l => funext fun c'' => wc_apply m c t l c''
  have e6 : (fun c'' : Fin 91 => (iblk m c 6 t : Vec Ideal S1x91 .f32) (ix2 (0 : Fin 1) c''))
      = fun c'' => (m ((c : Thread nD τ).loc main_arg6)) (ix1 c'') := funext fun c'' => bc_apply m c t c''
  rw [e1, e2, e3, e4, e5, e6]
  rfl

/-- The second output head. -/
theorem out10_eq (c : Dev nD) (t : Fin cfg0.N) (hN : t.val < 70) (ht : 65 ≤ t.val) (d0 : Vec Ideal S1024x896 .f32)
    (acc : Vec Ideal S5120x1024 .f32) (hg : GoodAcc m c t.val acc) :
    win0_10.fill (grid0.coords t)
      (k0_pay6 (k0_pay3 (win0_0.fill (grid0.coords t) d0 (iblk m c 0 t) : Vec Ideal S1024x896 .f32) (iblk m c 1 t : Vec Ideal S896x1024 .f32) (tile (grid0.coords t) acc))
        (iblk m c 2 t : Vec Ideal S1x1024 .f32) (iblk m c 3 t : Vec Ideal S1024x1024 .f32) (iblk m c 4 t : Vec Ideal S1x1024 .f32)
        (iblk m c 7 t : Vec Ideal S1024x364 .f32) (iblk m c 8 t : Vec Ideal S1x364 .f32))
      ((win0_10.blk t).view.read (Elt Ideal) (refBbox m c))
    = (k0_pay6 (k0_pay3 (win0_0.fill (grid0.coords t) d0 (iblk m c 0 t) : Vec Ideal S1024x896 .f32) (iblk m c 1 t : Vec Ideal S896x1024 .f32) (tile (grid0.coords t) acc))
        (iblk m c 2 t : Vec Ideal S1x1024 .f32) (iblk m c 3 t : Vec Ideal S1024x1024 .f32) (iblk m c 4 t : Vec Ideal S1x1024 .f32)
        (iblk m c 7 t : Vec Ideal S1024x364 .f32) (iblk m c 8 t : Vec Ideal S1x364 .f32)) := by
  refine fill10_eq c t hN ht _ (refBbox m c) (fun ρ' c' hr => ?_)
  rw [Cert.KernelIdeal.KPay.pay6_apply]
  unfold refBbox
  rw [Cert.ReferenceIdeal.RefSide.bbox_apply]
  have e1 : (fun j : Fin 1024 => k0_pay3 (win0_0.fill (grid0.coords t) d0 (iblk m c 0 t) : Vec Ideal S1024x896 .f32)
        (iblk m c 1 t : Vec Ideal S896x1024 .f32) (tile (grid0.coords t) acc) (ix2 ρ' j))
      = fun j => ∑ n : Fin 12544, xrow m c ⟨1024 * (t.val % 5) + ρ'.val, hr⟩ n * wcol m c j n :=
    funext fun j => last_rows m c t hN ht _ _ acc (fun ρ'' l hr' => x0_apply m c t hN d0 ρ'' l hr')
      (fun l j' => x1_apply m c t hN l j') hg ρ' j hr
  have e2 : (fun j : Fin 1024 => (iblk m c 2 t : Vec Ideal S1x1024 .f32) (ix2 (0 : Fin 1) j))
      = fun j => (m ((c : Thread nD τ).loc main_arg2)) (ix1 j) := funext fun j => b1_apply m c t j
  have e3 : (fun j l : Fin 1024 => (iblk m c 3 t : Vec Ideal S1024x1024 .f32) (ix2 j l))
      = fun j l => (m ((c : Thread nD τ).loc main_arg3)) (ix2 j l) := funext fun j => funext fun l => w2_apply m c t j l
  have e4 : (fun l : Fin 1024 => (iblk m c 4 t : Vec Ideal S1x1024 .f32) (ix2 (0 : Fin 1) l))
      = fun l => (m ((c : Thread nD τ).loc main_arg4)) (ix1 l) := funext fun l => b2_apply m c t l
  have e5 : (fun (l : Fin 1024) (c'' : Fin 364) => (iblk m c 7 t : Vec Ideal S1024x364 .f32) (ix2 l c''))
      = fun l c'' => (m ((c : Thread nD τ).loc main_arg7)) (ix2 l c'') := funext fun l => funext fun c'' => wb_apply m c t l c''
  have e6 : (fun c'' : Fin 364 => (iblk m c 8 t : Vec Ideal S1x364 .f32) (ix2 (0 : Fin 1) c''))
      = fun c'' => (m ((c : Thread nD τ).loc main_arg8)) (ix1 c'') := funext fun c'' => bb_apply m c t c''
  rw [e1, e2, e3, e4, e5, e6]
  rfl

end Cert.KernelIdeal.Hand

end
-- ==== Proof.KI.Body.lean ====
/-
  The body obligation of the idealized kernel's pipeline, at the exact extended reals: at every grid point, from the
  invariant on the scratch and every window's current staging buffer at what it then holds, the body runs to the
  invariant at the next point and every buffer at what the proof data say. The point's outer coordinate decides
  which of the body's three situations it is in; the run in that situation is the kernel's own (any float instance),
  and what is added here is the arithmetic: that the tile's rows inside the array advance by one block, and that at
  the last outer step the two stored output blocks agree, on the rows inside the array, with the reference's results.
-/
import proofs.«162220_g47519518163636_cont_8to1_c_297_4_alg».proof.Proof.KI.Defs
import proofs.«162220_g47519518163636_cont_8to1_c_297_4_alg».proof.Proof.KI.Good
import proofs.«162220_g47519518163636_cont_8to1_c_297_4_alg».proof.Proof.KI.Blocks
import proofs.«162220_g47519518163636_cont_8to1_c_297_4_alg».proof.Proof.KI.Cover
import proofs.«162220_g47519518163636_cont_8to1_c_297_4_alg».proof.Proof.KI.Out

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The class's region invariant with the scratch as a memref owned at some contents. -/
theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## What the body finds in each staging buffer -/

/-- The input's buffer just fetched (it is fetched at every point): its block on the rows inside the array, anything past them. -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## Where the outputs are idle -/

theorem idleAt9 : ∀ t : Fin cfg0.N, t.val < 65 → cfg0.idle 9 (grid0.coords t) = true :=
  (by decide +kernel : ∀ t : Fin grid0.N, t.val < 65 → cfg0.idle 9 (grid0.coords t) = true)
theorem idleAt10 : ∀ t : Fin cfg0.N, t.val < 65 → cfg0.idle 10 (grid0.coords t) = true :=
  (by decide +kernel : ∀ t : Fin grid0.N, t.val < 65 → cfg0.idle 10 (grid0.coords t) = true)
theorem liveAt9 : ∀ t : Fin cfg0.N, 65 ≤ t.val → cfg0.idle 9 (grid0.coords t) = false :=
  (by decide +kernel : ∀ t : Fin grid0.N, 65 ≤ t.val → cfg0.idle 9 (grid0.coords t) = false)
theorem liveAt10 : ∀ t : Fin cfg0.N, 65 ≤ t.val → cfg0.idle 10 (grid0.coords t) = false :=
  (by decide +kernel : ∀ t : Fin grid0.N, 65 ≤ t.val → cfg0.idle 10 (grid0.coords t) = false)

/-! ## What the obligation asks of each buffer afterwards -/

theorem leaves0_0 (c : Dev nD) (t : Fin cfg0.N) :
    (dats m 0 c).leaves 0 t = iprop(∃ d, owns (c : Thread nD τ) (st0_0 t) fullShare (win0_0.fill (grid0.coords t) d (iblk m c 0 t))) := by
  show iprop(∃ d, owns (c : Thread nD τ) (st0_0 t) fullShare (win0_0.fill (grid0.coords t) d (win0_0.cut (grid0.coords t) ((dats m 0 c).after 0 t)))) = _
  rw [after0_0, Window.cut_fill]
theorem leaves0_1 (c : Dev nD) (t : Fin cfg0.N) :
    (dats m 0 c).leaves 1 t = owns (c : Thread nD τ) (st0_1 t) fullShare (iblk m c 1 t) := by
  show owns (c : Thread nD τ) (st0_1 t) fullShare ((dats m 0 c).after 1 t) = _
  rw [after0_1]
theorem leaves0_2 (c : Dev nD) (t : Fin cfg0.N) :
    (dats m 0 c).leaves 2 t = owns (c : Thread nD τ) (st0_2 t) fullShare (iblk m c 2 t) := by
  show owns (c : Thread nD τ) (st0_2 t) fullShare ((dats m 0 c).after 2 t) = _
  rw [after0_2]
theorem leaves0_3 (c : Dev nD) (t : Fin cfg0.N) :
    (dats m 0 c).leaves 3 t = owns (c : Thread nD τ) (st0_3 t) fullShare (iblk m c 3 t) := by
  show owns (c : Thread nD τ) (st0_3 t) fullShare ((dats m 0 c).after 3 t) = _
  rw [after0_3]
theorem leaves0_4 (c : Dev nD) (t : Fin cfg0.N) :
    (dats m 0 c).leaves 4 t = owns (c : Thread nD τ) (st0_4 t) fullShare (iblk m c 4 t) := by
  show owns (c : Thread nD τ) (st0_4 t) fullShare ((dats m 0 c).after 4 t) = _
  rw [after0_4]
theorem leaves0_5 (c : Dev nD) (t : Fin cfg0.N) :
    (dats m 0 c).leaves 5 t = owns (c : Thread nD τ) (st0_5 t) fullShare (iblk m c 5 t) := by
  show owns (c : Thread nD τ) (st0_5 t) fullShare ((dats m 0 c).after 5 t) = _
  rw [after0_5]
theorem leaves0_6 (c : Dev nD) (t : Fin cfg0.N) :
    (dats m 0 c).leaves 6 t = owns (c : Thread nD τ) (st0_6 t) fullShare (iblk m c 6 t) := by
  show owns (c : Thread nD τ) (st0_6 t) fullShare ((dats m 0 c).after 6 t) = _
  rw [after0_6]
theorem leaves0_7 (c : Dev nD) (t : Fin cfg0.N) :
    (dats m 0 c).leaves 7 t = owns (c : Thread nD τ) (st0_7 t) fullShare (iblk m c 7 t) := by
  show owns (c : Thread nD τ) (st0_7 t) fullShare ((dats m 0 c).after 7 t) = _
  rw [after0_7]
theorem leaves0_8 (c : Dev nD) (t : Fin cfg0.N) :
    (dats m 0 c).leaves 8 t = owns (c : Thread nD τ) (st0_8 t) fullShare (iblk m c 8 t) := by
  show owns (c : Thread nD τ) (st0_8 t) fullShare ((dats m 0 c).after 8 t) = _
  rw [after0_8]
theorem leaves0_9_idle (c : Dev nD) (t : Fin cfg0.N) (h : t.val < 65) :
    (dats m 0 c).leaves 9 t = iprop(∃ d, owns (c : Thread nD τ) (st0_9 t) fullShare ((dats m 0 c).before 9 t d)) :=
  Dat.leaves_idle (dats m 0 c) 9 t (idleAt9 t h) (by have := (flush9_iff t).not.mpr (by omega); simpa using this)
theorem leaves0_10_idle (c : Dev nD) (t : Fin cfg0.N) (h : t.val < 65) :
    (dats m 0 c).leaves 10 t = iprop(∃ d, owns (c : Thread nD τ) (st0_10 t) fullShare ((dats m 0 c).before 10 t d)) :=
  Dat.leaves_idle (dats m 0 c) 10 t (idleAt10 t h) (by have := (flush10_iff t).not.mpr (by omega); simpa using this)
theorem leaves0_9_live (c : Dev nD) (t : Fin cfg0.N) (h : 65 ≤ t.val) :
    (dats m 0 c).leaves 9 t = iprop(∃ d, owns (c : Thread nD τ) (st0_9 t) fullShare
      (win0_9.fill (grid0.coords t) d ((win0_9.blk t).view.read (Elt Ideal) (refScore m c)))) := by
  unfold Dat.leaves; rw [liveAt9 t h]
  show iprop(∃ d, owns (c : Thread nD τ) (st0_9 t) fullShare (win0_9.fill (grid0.coords t) d (win0_9.cut (grid0.coords t) ((dats m 0 c).after 9 t)))) = _
  rw [after0_9, Window.cut_fill]
theorem leaves0_10_live (c : Dev nD) (t : Fin cfg0.N) (h : 65 ≤ t.val) :
    (dats m 0 c).leaves 10 t = iprop(∃ d, owns (c : Thread nD τ) (st0_10 t) fullShare
      (win0_10.fill (grid0.coords t) d ((win0_10.blk t).view.read (Elt Ideal) (refBbox m c)))) := by
  unfold Dat.leaves; rw [liveAt10 t h]
  show iprop(∃ d, owns (c : Thread nD τ) (st0_10 t) fullShare (win0_10.fill (grid0.coords t) d (win0_10.cut (grid0.coords t) ((dats m 0 c).after 10 t)))) = _
  rw [after0_10, Window.cut_fill]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t)

set_option maxHeartbeats 4800000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  have hN : t.val < 70 := lt_of_lt_of_eq t.isLt N70
  simp only [before0_0, before0_1, before0_2, before0_3, before0_4, before0_5, before0_6, before0_7, before0_8]
  rewrite [show (dats m 0 c).owesAt () t.succ = (dats m 0 c).owesAt () t.castSucc from rfl]
  rewrite [show (dats m 0 c).Φ t.succ = PhiS m c (t.val + 1) from rfl, show (dats m 0 c).Φ t.castSucc = PhiS m c t.val from rfl]
  rewrite [leaves0_0, leaves0_1, leaves0_2, leaves0_3, leaves0_4, leaves0_5, leaves0_6, leaves0_7, leaves0_8]
  unfold PhiS
  by_cases h65 : 65 ≤ t.val
  · -- the last outer step
    have hc1 : ¬ k0_cond1 (grid0.coords t) = 1#1 := fun h => by have := (hcond1 t).mp h; omega
    have hc2 : k0_cond2 (grid0.coords t) = 1#1 := (hcond2 t).mpr (by omega)
    have hc3 : k0_cond3 (grid0.coords t) = 1#1 := (hcond3 t).mpr h65
    rewrite [leaves0_9_live m c t h65, leaves0_10_live m c t h65]
    iintro ⟨⟨⟨%acc, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runC c (grid0.coords t) _ _ _ _ _ _ _ _ _ _ _ _ _ _ _ _ _ _ _ _ _ _ _ _ hc1 hc2 hc3
      (win0_0.fill (grid0.coords t) d0 (iblk m c 0 t)) (iblk m c 1 t) (iblk m c 2 t) (iblk m c 3 t) (iblk m c 4 t) (iblk m c 5 t)
      (iblk m c 6 t) (iblk m c 7 t) (iblk m c 8 t) ((dats m 0 c).before 9 t d9) ((dats m 0 c).before 10 t d10) acc Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hg]
    · isplitl [HS]
      · iexists _; isplitr
        swap; · iexact HS
        ipureintro
        exact good_stepB m c t hN (by omega) _ _ acc (fun ρ' l hr => x0_apply m c t hN d0 ρ' l hr) (fun l j => x1_apply m c t hN l j) hg
      iexact Hg
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _
      rewrite [out9_eq m c t hN h65 d0 acc hg]
      iexact H9
    · iexists _
      rewrite [out10_eq m c t hN h65 d0 acc hg]
      iexact H10
  · have h65' : t.val < 65 := by omega
    have hc3 : ¬ k0_cond3 (grid0.coords t) = 1#1 := fun h => by have := (hcond3 t).mp h; omega
    rewrite [leaves0_9_idle m c t h65', leaves0_10_idle m c t h65']
    by_cases h5 : t.val < 5
    · -- the first outer step
      have hc1 : k0_cond1 (grid0.coords t) = 1#1 := (hcond1 t).mpr h5
      have hc2 : ¬ k0_cond2 (grid0.coords t) = 1#1 := fun h => by have := (hcond2 t).mp h; omega
      iintro ⟨⟨⟨%acc, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runA c (grid0.coords t) _ _ _ _ _ _ _ _ _ _ _ _ _ _ _ _ _ _ _ _ _ _ _ _ hc1 hc2 hc3
        (win0_0.fill (grid0.coords t) d0 (iblk m c 0 t)) (iblk m c 1 t) acc Set.univ _)
      isplitl [H0]; · iexact H0
      isplitl [H1]; · iexact H1
      isplitl [HS]; · iexact HS
      iintro ⟨H0, H1, HS⟩
      isplitl [HS Hg]
      · isplitl [HS]
        · iexists _; isplitr
          swap; · iexact HS
          ipureintro
          exact good_stepA m c t hN h5 _ _ acc (fun ρ' l hr => x0_apply m c t hN d0 ρ' l hr) (fun l j => x1_apply m c t hN l j) hg
        iexact Hg
      isplitl [Ho]; · iexact Ho
      isplitl [H0]; · iexists d0; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists d9; iexact H9
      iexists d10; iexact H10
    · -- a middle outer step
      have hc1 : ¬ k0_cond1 (grid0.coords t) = 1#1 := fun h => by have := (hcond1 t).mp h; omega
      have hc2 : k0_cond2 (grid0.coords t) = 1#1 := (hcond2 t).mpr (by omega)
      iintro ⟨⟨⟨%acc, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runB c (grid0.coords t) _ _ _ _ _ _ _ _ _ _ _ _ _ _ _ _ _ _ _ _ _ _ _ _ hc1 hc2 hc3
        (win0_0.fill (grid0.coords t) d0 (iblk m c 0 t)) (iblk m c 1 t) acc Set.univ _)
      isplitl [H0]; · iexact H0
      isplitl [H1]; · iexact H1
      isplitl [HS]; · iexact HS
      iintro ⟨H0, H1, HS⟩
      isplitl [HS Hg]
      · isplitl [HS]
        · iexists _; isplitr
          swap; · iexact HS
          ipureintro
          exact good_stepB m c t hN (by omega) _ _ acc (fun ρ' l hr => x0_apply m c t hN d0 ρ' l hr) (fun l j => x1_apply m c t hN l j) hg
        iexact Hg
      isplitl [Ho]; · iexact Ho
      isplitl [H0]; · iexists d0; iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists d9; iexact H9
      iexists d10; iexact H10

/-- The library's body obligation, at every point. -/
theorem body_obligation (c : Dev nD) : BodyObligationLoose (dats m 0 c) (defs₀ (F := Ideal)) Variants.none () Set.univ := fun t => by
  rw [bigSep_W0, bigSep_W0]
  exact sound_body m c t

/-- What the launch hands the region is the invariant before the first point: no tile has been visited. -/
theorem hin (c : Dev nD) : Pipeline.ΦA spec0 c ⊢ (dats m 0 c).Φ 0 := by
  rewrite [show (dats m 0 c).Φ 0 = PhiS m c 0 from rfl, PhiA0_eq]
  unfold PhiS
  iintro ⟨⟨%d, HS⟩, Hg⟩
  isplitl [HS]
  · iexists d; isplitr; · ipureintro; exact good_zero m c d
    iexact HS
  iexact Hg

/-- After the last point the invariant gives the class's back: what the scratch holds is forgotten. -/
theorem hout (c : Dev nD) : (dats m 0 c).Φ (Fin.last cfg0.N) ⊢ Pipeline.ΦA spec0 c := by
  rewrite [show (dats m 0 c).Φ (Fin.last cfg0.N) = PhiS m c (Fin.last cfg0.N).val from rfl, PhiA0_eq]
  unfold PhiS
  iintro ⟨⟨%acc, -, HS⟩, Hg⟩
  isplitl [HS]
  · iexists acc; iexact HS
  iexact Hg

end Cert.KernelIdeal.Hand

end
-- ==== Proof.KI.Final.lean ====
/-
  The idealized kernel's run, at the exact extended reals: every weakly fair execution of @main terminates, nothing
  faulting, with the two result arrays holding the reference's two results of the argument arrays, and those arrays
  unchanged. The launch is the library's frame run with a tracking invariant (the scratch's kept products); each
  output array ends as the reference's result because the five blocks written back at the last outer step are that
  result's blocks and cover the array.
-/
import proofs.«162220_g47519518163636_cont_8to1_c_297_4_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

set_option backward.isDefEq.respectTransparency.types false in
/-- The run, to the library's post: every array of the pipeline at what the library computes from the proof data, every
    other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The first output array after the run: the reference's first result. -/
theorem final9 (c : Dev nD) : (dats m 0 c).arrAt 9 cfg0.N = refScore m c :=
  (dats m 0 c).arrAt_eq_of_cover 9 (refScore m c)
    (fun t _ => by
      show win0_9.cut (grid0.coords t) ((dats m 0 c).after 9 t) = _
      rw [after0_9]; exact Window.cut_fill _ _ _ _)
    (cover9 c)

/-- The second output array after the run: the reference's second result. -/
theorem final10 (c : Dev nD) : (dats m 0 c).arrAt 10 cfg0.N = refBbox m c :=
  (dats m 0 c).arrAt_eq_of_cover 10 (refBbox m c)
    (fun t _ => by
      show win0_10.cut (grid0.coords t) ((dats m 0 c).after 10 t) = _
      rw [after0_10]; exact Window.cut_fill _ _ _ _)
    (cover10 c)

/-- The run with its results named: the two result arrays end at the reference's results, the arguments unchanged (a staged
    input's array is never written; an argument the region only sees reshaped bypasses it). -/
theorem run_values : θ_run defs (onTc (τ := τ) (main (F := Ideal))) ⟨m, fun _ => 0, ρ⟩ (fun r => ∀ c : Dev nD,
      r.2.mem ((c.tc : Thread nD τ).loc main_v4_0) = refScore m c
      ∧ r.2.mem ((c.tc : Thread nD τ).loc main_v4_1) = refBbox m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 9).trans (final9 m c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c)⟩) (run_main m ρ)

/-- The frame: the run leaves the nine argument arrays as it found them. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2.2) (run_values m ρ)

end Cert.KernelIdeal.Hand

end
-- ==== Proof.lean ====
/-
  The certificate of a fused box-head kernel against its jnp reference, over the extended reals.

  Both programs compute, for 5000 rows x of 12544 features, h1 = relu(x·W1 + b1), h2 = relu(h1·W2 + b2) and the two
  heads h2·Wc + bc (91 columns) and h2·Wb + bb (364 columns). The reference does each product whole. The kernel is one
  pallas_call on a grid of 14 × 5 points: the inner coordinate picks a tile of 1024 rows (the fifth overhangs the 5000
  rows), the outer one a block of 896 of the 12544 features; each point multiplies its 1024 × 896 input block by its
  896 × 1024 block of W1 and stores (first outer step) or adds (later steps) the product into its tile of a scratch
  array kept across points; at the last outer step the tile then holds x·W1 for its rows, and the point finishes the
  tile: bias, relu, the second layer and both heads, stored into the outputs' blocks, which are written back only then.

  Why the two agree at the exact extended reals: a matrix product into a zero accumulator is the plain sum over the
  contracted axis, and addition of extended reals is commutative and associative, so fourteen blocks of 896 terms added
  in order are the sum of all 12544 (no distributivity and no finiteness of the inputs is used; the precondition is
  never opened). Everything after the first product is row by row the same formula in both programs. The rows past the
  array's end in the overhanging tile hold words nothing names; no product here contracts over rows, so they reach
  only rows past the end of the outputs, which the cut write-back never writes.

  The claims: the word-level program's frame (relational proof data that say nothing of contents, since at the machine's
  words a matrix product is opaque in its whole operands and the overhanging tail cannot be named); the idealized
  program's frame and its values (exact proof data: the reference's own results read through the outputs' blocks, and
  an invariant on the scratch's rows inside the array); the reference's frame (its run, the results dropped); the
  idealization rewrote nothing; and the algebraic claim, both runs ending at the reference's composed terms.
-/
import proofs.«162220_g47519518163636_cont_8to1_c_297_4_alg».proof.Defs
import proofs.«162220_g47519518163636_cont_8to1_c_297_4_alg».proof.Proof.Gen.Kernel
import proofs.«162220_g47519518163636_cont_8to1_c_297_4_alg».proof.Proof.Gen.KernelIdeal
import proofs.«162220_g47519518163636_cont_8to1_c_297_4_alg».proof.Proof.Gen.ReferenceIdeal
import proofs.«162220_g47519518163636_cont_8to1_c_297_4_alg».proof.Proof.Gen.Pre_finite_inputs
import proofs.«162220_g47519518163636_cont_8to1_c_297_4_alg».proof.Proof.Gen.ReferenceIdeal.Run
import proofs.«162220_g47519518163636_cont_8to1_c_297_4_alg».proof.Proof.Gen.ReferenceIdeal.Read
import proofs.«162220_g47519518163636_cont_8to1_c_297_4_alg».proof.Proof.KB.Frame
import proofs.«162220_g47519518163636_cont_8to1_c_297_4_alg».proof.Proof.KI.Final
import Idealize.ShloMosaic.Adequacy
import Idealize.ShloMosaic.Init

set_option maxRecDepth 16384

noncomputable section

namespace Cert.Proof

open Idealize.ShloMosaic Idealize.ShloMosaic.TcCoe Idealize.SL.Sem

/-- The word-level program's frame. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized program's frame. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both idealized programs end at the reference's composed terms of the arguments: the kernel's by its run, the
    reference's by its own, the two memories agreeing on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.refScore m c, fun c => Cert.KernelIdeal.Hand.refBbox m c, Cert.KernelIdeal.Hand.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1,
      (hagree c).2.2.2.2.2.2.1]
    rfl
  · rw [(hagree c).1, (hagree c).2.1, (hagree c).2.2.1, (hagree c).2.2.2.1, (hagree c).2.2.2.2.1, (hagree c).2.2.2.2.2.2.2.1,
      (hagree c).2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
